-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S19x256 : Shape := ⟨2, ![19, 256]⟩
abbrev S4x128x128 : Shape := ⟨3, ![4, 128, 128]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel
  bcast_S_S19x256 : S_.BroadcastsInDim S19x256 (![] : Fin 0 → Fin S19x256.rank)
  reducesTo_S19x256_S_d0_1 : S19x256.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x256x128x128 .f32) (main_arg1 : FVec F S19x256 .f32) (main_arg2 : IVec S4x128x128 32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S19x256 .f32 := Host.absf main_arg1
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  let main_c_2 : IVec S_ 32 := constantI S_ 32 0#32
  let main_v9 : IVec S4x128x128 32 := broadcastInDim S4x128x128 ![] bcast_S_S4x128x128 main_c_2
  let main_v10 : IVec S4x128x128 1 := cmpi .sge main_arg2 main_v9
  let main_c_3 : IVec S_ 1 := constantI S_ 1 1#1
  let main_v11 : IVec S_ 1 := (fun x v => Host.reduce IntOp.andi x v reducesTo_S4x128x128_S_d0_1_2 h_S_) main_v10 main_c_3
  let main_v12 : IVec S_ 1 := andi main_v8 main_v11
  let main_c_4 : IVec S_ 32 := constantI S_ 32 19#32
  let main_v13 : IVec S4x128x128 32 := broadcastInDim S4x128x128 ![] bcast_S_S4x128x128 main_c_4
  let main_v14 : IVec S4x128x128 1 := cmpi .slt main_arg2 main_v13
  let main_c_5 : IVec S_ 1 := constantI S_ 1 1#1
  let main_v15 : IVec S_ 1 := (fun x v => Host.reduce IntOp.andi x v reducesTo_S4x128x128_S_d0_1_2 h_S_) main_v14 main_c_5
  fn_part1 (F := F) main_v12 main_v15
-- ==== Kernel.lean ====
abbrev S4x256x128x128 : Shape := ⟨4, ![4, 256, 128, 128]⟩
abbrev S19x256 : Shape := ⟨2, ![19, 256]⟩
abbrev S4x128x128 : Shape := ⟨3, ![4, 128, 128]⟩
abbrev S_ : Shape := ⟨0, ![]⟩
abbrev S19 : Shape := ⟨1, ![19]⟩
abbrev S19x1 : Shape := ⟨2, ![19, 1]⟩
abbrev S4x256x16384 : Shape := ⟨3, ![4, 256, 16384]⟩
abbrev S4x1x16384 : Shape := ⟨3, ![4, 1, 16384]⟩
abbrev S4x1x1 : Shape := ⟨3, ![4, 1, 1]⟩
abbrev S1x256x8192 : Shape := ⟨3, ![1, 256, 8192]⟩
abbrev S1x1x8192 : Shape := ⟨3, ![1, 1, 8192]⟩
abbrev S1x1x1 : Shape := ⟨3, ![1, 1, 1]⟩
abbrev S256x8192 : Shape := ⟨2, ![256, 8192]⟩
abbrev S1x8192 : Shape := ⟨2, ![1, 8192]⟩
abbrev S8192 : Shape := ⟨1, ![8192]⟩
abbrev S19x8192 : Shape := ⟨2, ![19, 8192]⟩
abbrev S1 : Shape := ⟨1, ![1]⟩
abbrev S1x1 : Shape := ⟨2, ![1, 1]⟩

abbrev nBuf : Space → Nat
  | .hbm => 28
  | .vmem => 7
  | .smem => 0
  | _ => 0

abbrev bufTy : (tb : Table) → Fin (tcTables nBuf tb) → BufTy
  | .hbm, ⟨0, _⟩ => ⟨S4x256x128x128, .f32⟩
  | .hbm, ⟨1, _⟩ => ⟨S19x256, .f32⟩
  | .hbm, ⟨2, _⟩ => ⟨S4x128x128, .i32⟩
  | .hbm, ⟨3, _⟩ => ⟨S19x256, .f32⟩
  | .hbm, ⟨4, _⟩ => ⟨S_, .f32⟩
  | .hbm, ⟨5, _⟩ => ⟨S19, .f32⟩
  | .hbm, ⟨6, _⟩ => ⟨S19x1, .f32⟩
  | .hbm, ⟨7, _⟩ => ⟨S19x1, .f32⟩
  | .hbm, ⟨8, _⟩ => ⟨S_, .f32⟩
  | .hbm, ⟨9, _⟩ => ⟨S19x1, .f32⟩
  | .hbm, ⟨10, _⟩ => ⟨S19x1, .f32⟩
  | .hbm, ⟨11, _⟩ => ⟨S19x256, .f32⟩
  | .hbm, ⟨12, _⟩ => ⟨S19x256, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x128x128, .i32⟩
  | .hbm, ⟨17, _⟩ => ⟨S4x128x128, .i32⟩
  | .hbm, ⟨18, _⟩ => ⟨S_, .i32⟩
  | .hbm, ⟨19, _⟩ => ⟨S4x128x128, .i32⟩
  | .hbm, ⟨20, _⟩ => ⟨S4x128x128, .i32⟩
  | .hbm, ⟨21, _⟩ => ⟨S4x256x16384, .f32⟩
  | .hbm, ⟨22, _⟩ => ⟨S4x1x16384, .i32⟩
  | .hbm, ⟨23, _⟩ => ⟨S4x1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x256x8192, .f32⟩
  | .local _ .vmem, ⟨1, _⟩ => ⟨S1x256x8192, .f32⟩
  | .local _ .vmem, ⟨2, _⟩ => ⟨S1x1x8192, .i32⟩
  | .local _ .vmem, ⟨3, _⟩ => ⟨S1x1x8192, .i32⟩
  | .local _ .vmem, ⟨4, _⟩ => ⟨S19x256, .f32⟩
  | .local _ .vmem, ⟨5, _⟩ => ⟨S1x1x1, .f32⟩
  | .local _ .vmem, ⟨6, _⟩ => ⟨S1x1x1, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S19x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S19x256_S19_d1 : S19x256.ReducesTo [1] S19
  h_S_ : 0 < S_.numel
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  bcast_S_S4x128x128 : S_.BroadcastsInDim S4x128x128 (![] : Fin 0 → Fin S4x128x128.rank)
  shapeCasts_S4x256x128x128_S4x256x16384 : S4x256x128x128.ShapeCasts S4x256x16384
  shapeCasts_S4x128x128_S4x1x16384 : S4x128x128.ShapeCasts S4x1x16384
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  inb_S19x256_S19x256_0_0 : ∀ a, (![0, 0] : Fin 2 → Nat) a + S19x256.size a ≤ S19x256.size a
  h_S19x256 : 0 < S19x256.numel
  shapeCasts_S19x256_S19x256 : S19x256.ShapeCasts S19x256
  reduces_S256x8192_S8192 : S256x8192.Reduces [0] S8192
  shapeCasts_S8192_S1x8192 : S8192.ShapeCasts S1x8192
  reduces_S19x256_S19 : S19x256.Reduces [1] S19
  shapeCasts_S19_S19x1 : S19.ShapeCasts S19x1
  bitsLt_bf16_f32 : FTy.bits .bf16 < FTy.bits .f32
  iota_S19x8192_d0_w32 : S19x8192.Iotas .tc 32 [0]
  broadcasts_S1x8192_S19x8192 : S1x8192.Broadcasts S19x8192
  reduces_S19x8192_S8192 : S19x8192.Reduces [0] S8192
  shapeCasts_S19x1_S19x1 : S19x1.ShapeCasts S19x1
  broadcasts_S19x1_S19x8192 : S19x1.Broadcasts S19x8192
  reduces_S1x8192_S1 : S1x8192.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S1x1_S1x1x1 : S1x1.ShapeCasts S1x1x1
  reducesTo_S4x1x1_S_d0_1_2 : S4x1x1.ReducesTo [0, 1, 2] S_
  dot_S19x256_S256x8192_S19x8192_1_0_0_1_n_n_wf : DotDims.WF S19x256 S256x8192 S19x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S4x256x16384.size a
  hwx0_0 : ∀ i : grid0.Coords, EltTy.bits .f32 = 32 ∨ (Rect.block (s := S4x256x16384) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S4x1x16384.size a
  hwx0_1 : ∀ i : grid0.Coords, EltTy.bits .i32 = 32 ∨ (Rect.block (s := S4x1x16384) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x256.size a ≤ S19x256.size a
  hwx0_2 : ∀ i : grid0.Coords, EltTy.bits .f32 = 32 ∨ (Rect.block (s := S19x256) S19x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)

variable [Facts₀]

def dot_S19x256_S256x8192_S19x8192_1_0_0_1_n_n : DotDims S19x256 S256x8192 S19x8192 where
  lhsContracting := [1]
  rhsContracting := [0]
  lhsNonContracting := [0]
  rhsNonContracting := [1]
  lhsBatch := []
  rhsBatch := []
  wf := dot_S19x256_S256x8192_S19x8192_1_0_0_1_n_n_wf

abbrev win0_0 : Pipeline.Window sig grid0 :=
  Pipeline.Window.ofSpec (Memref.whole main_v6) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S19x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x128x128 : Shape := ⟨4, ![4, 256, 128, 128]⟩
abbrev S19x256 : Shape := ⟨2, ![19, 256]⟩
abbrev S4x128x128 : Shape := ⟨3, ![4, 128, 128]⟩
abbrev S_ : Shape := ⟨0, ![]⟩
abbrev S4x1x128x128 : Shape := ⟨4, ![4, 1, 128, 128]⟩
abbrev S19 : Shape := ⟨1, ![19]⟩
abbrev S19x1 : Shape := ⟨2, ![19, 1]⟩
abbrev S4x128x128x256 : Shape := ⟨4, ![4, 128, 128, 256]⟩
abbrev S65536x256 : Shape := ⟨2, ![65536, 256]⟩
abbrev S65536 : Shape := ⟨1, ![65536]⟩
abbrev S65536x1 : Shape := ⟨2, ![65536, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S19x256, .f32⟩
  | .hbm, ⟨2, _⟩ => ⟨S4x128x128, .i32⟩
  | .hbm, ⟨3, _⟩ => ⟨S4x256x128x128, .f32⟩
  | .hbm, ⟨4, _⟩ => ⟨S_, .f32⟩
  | .hbm, ⟨5, _⟩ => ⟨S4x128x128, .f32⟩
  | .hbm, ⟨6, _⟩ => ⟨S4x1x128x128, .f32⟩
  | .hbm, ⟨7, _⟩ => ⟨S4x1x128x128, .f32⟩
  | .hbm, ⟨8, _⟩ => ⟨S_, .f32⟩
  | .hbm, ⟨9, _⟩ => ⟨S4x1x128x128, .f32⟩
  | .hbm, ⟨10, _⟩ => ⟨S4x1x128x128, .f32⟩
  | .hbm, ⟨11, _⟩ => ⟨S4x256x128x128, .f32⟩
  | .hbm, ⟨12, _⟩ => ⟨S4x256x128x128, .f32⟩
  | .hbm, ⟨13, _⟩ => ⟨S19x256, .f32⟩
  | .hbm, ⟨14, _⟩ => ⟨S_, .f32⟩
  | .hbm, ⟨15, _⟩ => ⟨S19, .f32⟩
  | .hbm, ⟨16, _⟩ => ⟨S19x1, .f32⟩
  | .hbm, ⟨17, _⟩ => ⟨S19x1, .f32⟩
  | .hbm, ⟨18, _⟩ => ⟨S_, .f32⟩
  | .hbm, ⟨19, _⟩ => ⟨S19x1, .f32⟩
  | .hbm, ⟨20, _⟩ => ⟨S19x1, .f32⟩
  | .hbm, ⟨21, _⟩ => ⟨S19x256, .f32⟩
  | .hbm, ⟨22, _⟩ => ⟨S19x256, .f32⟩
  | .hbm, ⟨23, _⟩ => ⟨S4x128x128x256, .f32⟩
  | .hbm, ⟨24, _⟩ => ⟨S65536x256, .f32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536, .f32⟩
  | .hbm, ⟨38, _⟩ => ⟨S65536x256, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S65536x256, .f32⟩
  | .hbm, ⟨43, _⟩ => ⟨S_, .f32⟩
  | .hbm, ⟨44, _⟩ => ⟨S65536, .f32⟩
  | .hbm, ⟨45, _⟩ => ⟨S_, .f32⟩
  | .hbm, ⟨46, _⟩ => ⟨S65536, .f32⟩
  | .hbm, ⟨47, _⟩ => ⟨S65536, .f32⟩
  | .hbm, ⟨48, _⟩ => ⟨S65536, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  reducesTo_S4x256x128x128_S4x128x128_d1 : S4x256x128x128.ReducesTo [1] S4x128x128
  h_S_ : 0 < S_.numel
  bcast_S4x128x128_S4x1x128x128_0_2_3 : S4x128x128.BroadcastsInDim S4x1x128x128 (![0, 2, 3] : Fin 3 → Fin S4x1x128x128.rank)
  bcast_S_S4x1x128x128 : S_.BroadcastsInDim S4x1x128x128 (![] : Fin 0 → Fin S4x1x128x128.rank)
  bcast_S4x1x128x128_S4x256x128x128_0_1_2_3 : S4x1x128x128.BroadcastsInDim S4x256x128x128 (![0, 1, 2, 3] : Fin 4 → Fin S4x256x128x128.rank)
  reducesTo_S19x256_S19_d1 : S19x256.ReducesTo [1] S19
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  transposes_S4x256x128x128_S4x128x128x256_0_2_3_1 : S4x256x128x128.Transposes [0, 2, 3, 1] S4x128x128x256
  shapeCasts_S4x128x128x256_S65536x256 : S4x128x128x256.ShapeCasts S65536x256
  shapeCasts_S4x128x128_S65536 : S4x128x128.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  reducesTo_S65536x256_S65536_d1 : S65536x256.ReducesTo [1] S65536
  reducesTo_S65536_S_d0 : S65536.ReducesTo [0] S_
  gather_S19x256_S65536x1_S65536x256_1_0_n_n_0_1_1256_wf : GatherDims.WF S19x256 S65536x1 S65536x256 [1] [0] [] [0] [] 1 ![1, 256]

variable [Facts₀]

def gather_S19x256_S65536x1_S65536x256_1_0_n_n_0_1_1256 : GatherDims S19x256 S65536x1 S65536x256 where
  offsetDims := [1]
  collapsedSliceDims := [0]
  operandBatchingDims := []
  startIndicesBatchingDims := []
  startIndexMap := [0]
  indexVectorDim := 1
  sliceSizes := ![1, 256]
  wf := gather_S19x256_S65536x1_S65536x256_1_0_n_n_0_1_1256_wf

class Facts : Prop extends Facts₀ where

variable [Facts]
-- ==== Proof.Spec.lean ====
/-
  The mathematics of the center loss at one pixel, over the extended reals.

  A pixel carries a channel vector `xv` (256 entries) and an integer label; the loss at the pixel is the squared
  distance between the L2-normalized channel vector and the L2-normalized center row the label selects,
  expanded as |xn|² + |cn|² − 2·⟨xn, cn⟩.  Two arrangements of that number are named here:

  * `pixRef`: normalize first — divide every channel by N = max(√(Σ x²), D) — and then take the three sums;
  * `pixKer`: take the sums on the raw channels and scale afterwards by 1/N' with N' = √(max(Σ x², E)),
    the center row selected by a one-hot mask over the 19 classes (a sum over the classes of the masked terms).

  Every constant is a parameter, so that nothing here evaluates a bit pattern.
-/
import Idealize.ShloMosaic.PureOps.Ideal
import Idealize.ShloMosaic.Lib.ValueIdx

noncomputable section

namespace CenterLoss

open Idealize.ShloMosaic Idealize.ShloMosaic.ValueIdx
open scoped BigOperators

/-- The squared distance, normalizing first: with N = max(√(z + Σ x²), D),
    (z + Σ (x/N)²) + (z + Σ cv²) − two·(z + Σ (x/N)·cv). -/
def pixRef (z two D : EReal) (xv cv : Fin 256 → EReal) : EReal :=
  ((z + ∑ c : Fin 256, Ideal.div (xv c) (max (Ideal.sqrt (z + ∑ c' : Fin 256, xv c' * xv c')) D)
        * Ideal.div (xv c) (max (Ideal.sqrt (z + ∑ c' : Fin 256, xv c' * xv c')) D))
    + (z + ∑ c : Fin 256, cv c * cv c))
  - two * (z + ∑ c : Fin 256, Ideal.div (xv c) (max (Ideal.sqrt (z + ∑ c' : Fin 256, xv c' * xv c')) D) * cv c)

/-- The reciprocal norm the second arrangement scales by: one / √(max(Σ x², E)). -/
def invNorm (one E : EReal) (xv : Fin 256 → EReal) : EReal :=
  Ideal.div one (Ideal.sqrt (max (∑ c : Fin 256, xv c * xv c) E))

/-- A per-class quantity `v` selected by the one-hot mask of the label word: Σ over the classes of
    `v k` where the label is class `k`, `z` elsewhere. -/
def maskSum (z : EReal) (lab : BitVec 32) (v : Fin 19 → EReal) : EReal :=
  ∑ k : Fin 19, if lab = BitVec.ofNat 32 k.val then v k else z

/-- The squared distance, scaling afterwards:
    ((Σ x²)·inv)·inv + mask-selected Σ cn² − ((two · mask-selected ⟨cn, x⟩) · inv). -/
def pixKer (z one two E : EReal) (xv : Fin 256 → EReal) (lab : BitVec 32) (cn : Fin 19 → Fin 256 → EReal) : EReal :=
  (((∑ c : Fin 256, xv c * xv c) * invNorm one E xv) * invNorm one E xv
    + maskSum z lab (fun k => ∑ c : Fin 256, cn k c * cn k c))
  - (two * maskSum z lab (fun k => ∑ c : Fin 256, cn k c * xv c)) * invNorm one E xv

/-! ## The whole loss: pixels, and the two totals

  The 4·128·128 = 65536 pixels are numbered row-major over (image, row, column): pixel `p` is image `p / 16384`,
  row `p / 128 % 128`, column `p % 128`.  The loss is the mean over the pixels of the per-pixel distance. -/

/-- The shapes of the three arguments: features [4, 256, 128, 128], centers [19, 256], labels [4, 128, 128]. -/
abbrev SX : Shape := ⟨4, ![4, 256, 128, 128]⟩
abbrev SC : Shape := ⟨2, ![19, 256]⟩
abbrev SL : Shape := ⟨3, ![4, 128, 128]⟩

/-- Pixel `p`'s image, row and column. -/
def pixN (p : Fin 65536) : Fin 4 := ⟨p.val / 16384, by have := p.isLt; omega⟩
def pixH (p : Fin 65536) : Fin 128 := ⟨p.val / 128 % 128, Nat.mod_lt _ (by decide)⟩
def pixW (p : Fin 65536) : Fin 128 := ⟨p.val % 128, Nat.mod_lt _ (by decide)⟩

/-- The pixel at lane `l` of half `j` of image `i`: each image's 16384 pixels are visited in two runs of 8192. -/
def pixOf (i : Fin 4) (j : Fin 2) (l : Fin 8192) : Fin 65536 :=
  ⟨i.val * 16384 + j.val * 8192 + l.val, by have := i.isLt; have := j.isLt; have := l.isLt; omega⟩

/-- The channel vector of the features at a pixel; the label word at a pixel; the rows of a [19, 256] table. -/
def chanAt (x : SX.Idx → EReal) (p : Fin 65536) : Fin 256 → EReal := fun c => x (ix4 (pixN p) c (pixH p) (pixW p))
def labAt (lab : SL.Idx → BitVec 32) (p : Fin 65536) : BitVec 32 := lab (ix3 (pixN p) (pixH p) (pixW p))
def rows (cn : SC.Idx → EReal) : Fin 19 → Fin 256 → EReal := fun k c => cn (ix2 k c)

/-- The class a label word names (a word in range names itself). -/
def labIdx (w : BitVec 32) : Fin 19 := ⟨w.toNat % 19, Nat.mod_lt _ (by decide)⟩

/-- The f32 patterns of the constants both programs carry: 0, 1, 2, the norm floor 1e-12 (as f32), the pixel count. -/
abbrev zE : EReal := Ideal.ofBits .f32 0x00000000#32
abbrev oneE : EReal := Ideal.ofBits .f32 0x3F800000#32
abbrev twoE : EReal := Ideal.ofBits .f32 0x40000000#32
abbrev epsE : EReal := Ideal.ofBits .f32 0x2B8CBCCC#32
abbrev cntE : EReal := Ideal.ofBits .f32 0x47800000#32

/-- The mean of `pixRef` over the pixels, the center row of pixel `p` the row its label names:
    (0 + Σ_p pixRef) / 65536. -/
def refTotal (x : SX.Idx → EReal) (cn : SC.Idx → EReal) (lab : SL.Idx → BitVec 32) : EReal :=
  Ideal.div (zE + ∑ p : Fin 65536, pixRef zE twoE epsE (chanAt x p) (rows cn (labIdx (labAt lab p)))) cntE

/-- The mean of `pixKer` over the pixels, summed image by image, each image as (0 + first half) + second half:
    (0 + Σ_i ((0 + Σ_l pixKer at (i, 0, l)) + Σ_l pixKer at (i, 1, l))) / 65536. -/
def kerTotal (E : EReal) (x : SX.Idx → EReal) (cn : SC.Idx → EReal) (lab : SL.Idx → BitVec 32) : EReal :=
  Ideal.div (zE + ∑ i : Fin 4,
    ((zE + ∑ l : Fin 8192, pixKer zE oneE twoE E (chanAt x (pixOf i 0 l)) (labAt lab (pixOf i 0 l)) (rows cn))
      + ∑ l : Fin 8192, pixKer zE oneE twoE E (chanAt x (pixOf i 1 l)) (labAt lab (pixOf i 1 l)) (rows cn))) cntE

end CenterLoss

end
-- ==== Proof.LibCoe.lean ====
/-
  Reals inside the extended reals: how the operations of the ideal float instance act on real arguments.

  General facts, independent of any program. The cast of a finite sum of reals; the quotient of two reals with a nonzero
  divisor; the reciprocal square root of a positive real; the exponential, the maximum and the maximum of a finite family
  folded from -∞, each of real arguments: all are again reals, the ones the real operations give.
-/
import Idealize.ShloMosaic.PureOps.Ideal

noncomputable section

open scoped BigOperators

namespace Cert.LibCoe

open Idealize.ShloMosaic

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The ideal quotient of two reals with a nonzero divisor is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- The ideal reciprocal square root of a positive real is the real one. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- The ideal exponential of a real is the real one. -/
theorem exp_coe (x : ℝ) : Ideal.exp (x : EReal) = ((Real.exp x : ℝ) : EReal) := rfl

/-- The maximum of two reals, taken in the extended reals, is the real maximum. -/
theorem max_coe (x y : ℝ) : max (x : EReal) (y : EReal) = ((max x y : ℝ) : EReal) := by
  rcases le_total x y with hxy | hxy
  · rw [max_eq_right hxy, max_eq_right (EReal.coe_le_coe_iff.mpr hxy)]
  · rw [max_eq_left hxy, max_eq_left (EReal.coe_le_coe_iff.mpr hxy)]

/-- The maximum of a nonempty finite family of reals, folded in the extended reals from -∞, is the real maximum. -/
theorem fold_max_bot_coe {ι : Type*} [Fintype ι] [Nonempty ι] (r : ι → ℝ) :
    (Finset.univ : Finset ι).fold max (⊥ : EReal) (fun k => (r k : EReal))
      = ((Finset.univ.sup' Finset.univ_nonempty r : ℝ) : EReal) := by
  rw [Finset.comp_sup'_eq_sup'_comp Finset.univ_nonempty (fun x : ℝ => (x : EReal)) (fun x y => (max_coe x y).symm),
    Finset.sup'_eq_sup]
  rfl

end Cert.LibCoe

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Math.lean ====
/-
  The two arrangements of the per-pixel distance agree on real data, and so do the two totals.

  Every quantity is first shown to be the cast of a real number; the two per-pixel numbers are then casts of two real
  expressions, equal by the distributive law.  The totals differ only in how the finite sum over the pixels is
  grouped.
-/
import proofs.«426619_j55198919688422_3_alg».proof.Proof.Spec
import proofs.«426619_j55198919688422_3_alg».proof.Proof.LibCoe
import proofs.«426619_j55198919688422_3_alg».proof.Proof.LibSumSplit
import Mathlib.Analysis.SpecialFunctions.Sqrt

noncomputable section

namespace CenterLoss

open Idealize.ShloMosaic Idealize.ShloMosaic.ValueIdx
open scoped BigOperators
open Cert.LibCoe

/-! ## Reals inside the extended reals -/

/-- A finite sum of products of casts is the cast of the real sum of products. -/
theorem sum_mul_coe (a b : Fin 256 → ℝ) :
    ∑ c : Fin 256, (a c : EReal) * (b c : EReal) = ((∑ c : Fin 256, a c * b c : ℝ) : EReal) := by
  rw [coe_sum]
  exact Finset.sum_congr rfl (fun c _ => (EReal.coe_mul _ _).symm)

/-- A sum of squares of reals is not negative. -/
theorem sumsq_nonneg (x : Fin 256 → ℝ) : 0 ≤ ∑ c : Fin 256, x c * x c :=
  Finset.sum_nonneg (fun c _ => mul_self_nonneg (x c))

/-- The floored norm N = max(√(Σ x²), d) of a real row is the cast of the real floored norm. -/
theorem floorNorm_coe (x : Fin 256 → ℝ) (d : ℝ) :
    max (Ideal.sqrt ((0 : EReal) + ∑ c : Fin 256, (x c : EReal) * (x c : EReal))) (d : EReal)
      = ((max (Real.sqrt (∑ c : Fin 256, x c * x c)) d : ℝ) : EReal) := by
  rw [zero_add, sum_mul_coe, Ideal.sqrt_coe, if_neg (not_lt.mpr (sumsq_nonneg x)), max_coe]

/-- The real floored norm is positive when the floor is. -/
theorem floorNorm_pos (x : Fin 256 → ℝ) {d : ℝ} (hd : 0 < d) :
    0 < max (Real.sqrt (∑ c : Fin 256, x c * x c)) d :=
  lt_of_lt_of_le hd (le_max_right _ _)

/-- A channel of a real row divided by the floored norm is the cast of the real quotient. -/
theorem normalized_coe (x : Fin 256 → ℝ) {d : ℝ} (hd : 0 < d) (c : Fin 256) :
    Ideal.div (x c : EReal)
        (max (Ideal.sqrt ((0 : EReal) + ∑ c' : Fin 256, (x c' : EReal) * (x c' : EReal))) (d : EReal))
      = ((x c / max (Real.sqrt (∑ c' : Fin 256, x c' * x c')) d : ℝ) : EReal) := by
  rw [floorNorm_coe, div_coe_coe _ (ne_of_gt (floorNorm_pos x hd))]

/-- The square root is monotone, so √(max(s, d²)) = max(√s, d) for d ≥ 0. -/
theorem sqrt_max_sq (s : ℝ) {d : ℝ} (hd : 0 ≤ d) : Real.sqrt (max s (d * d)) = max (Real.sqrt s) d := by
  rw [Real.sqrt_monotone.map_max, Real.sqrt_mul_self hd]

/-- The reciprocal norm of a real row, 1 / √(max(Σ x², d²)), is the cast of 1 / max(√(Σ x²), d). -/
theorem invNorm_coe (x : Fin 256 → ℝ) {d : ℝ} (hd : 0 < d) :
    invNorm ((1 : ℝ) : EReal) ((d * d : ℝ) : EReal) (fun c => (x c : EReal))
      = ((1 / max (Real.sqrt (∑ c : Fin 256, x c * x c)) d : ℝ) : EReal) := by
  unfold invNorm
  have hnn : ¬ max (∑ c : Fin 256, x c * x c) (d * d) < 0 :=
    not_lt.mpr (le_trans (sumsq_nonneg x) (le_max_left _ _))
  rw [sum_mul_coe, max_coe, Ideal.sqrt_coe, if_neg hnn, sqrt_max_sq _ hd.le,
    div_coe_coe _ (ne_of_gt (floorNorm_pos x hd))]

/-- Two class numbers below 19 with the same 32-bit word are the same class. -/
theorem ofNat_inj_class (k0 k : Fin 19) (h : BitVec.ofNat 32 k0.val = BitVec.ofNat 32 k.val) : k0 = k := by
  have h' := congrArg BitVec.toNat h
  rw [BitVec.toNat_ofNat, BitVec.toNat_ofNat] at h'
  have h0 := k0.isLt
  have h1 := k.isLt
  apply Fin.ext
  omega

/-- The one-hot mask of the word of class k0 selects the k0-th of the per-class quantities: every other class adds 0. -/
theorem maskSum_ofNat (v : Fin 19 → EReal) (k0 : Fin 19) :
    maskSum 0 (BitVec.ofNat 32 k0.val) v = v k0 := by
  unfold maskSum
  rw [Finset.sum_eq_single k0]
  · rw [if_pos rfl]
  · intro k _ hk
    rw [if_neg]
    intro h
    exact hk (ofNat_inj_class k0 k h).symm
  · intro h
    exact absurd (Finset.mem_univ k0) h

/-- The real identity behind the two arrangements: with s = Σ x², t = 1/N,
    (s·t)·t + Σ g² − (2·Σ g·x)·t = Σ (x/N)² + Σ g² − 2·Σ (x/N)·g. -/
theorem real_identity (x g : Fin 256 → ℝ) (N : ℝ) :
    ((∑ c : Fin 256, x c * x c) * (1 / N)) * (1 / N) + (∑ c : Fin 256, g c * g c)
        - (2 * ∑ c : Fin 256, g c * x c) * (1 / N)
      = ((∑ c : Fin 256, (x c / N) * (x c / N)) + ∑ c : Fin 256, g c * g c)
        - 2 * ∑ c : Fin 256, (x c / N) * g c := by
  have h1 : ∑ c : Fin 256, (x c / N) * (x c / N) = ((∑ c : Fin 256, x c * x c) * (1 / N)) * (1 / N) := by
    rw [Finset.sum_mul, Finset.sum_mul]
    exact Finset.sum_congr rfl (fun c _ => by ring)
  have h2 : ∑ c : Fin 256, (x c / N) * g c = (∑ c : Fin 256, g c * x c) * (1 / N) := by
    rw [Finset.sum_mul]
    exact Finset.sum_congr rfl (fun c _ => by ring)
  rw [h1, h2]
  ring

/-! ## One pixel -/

/-- A channel divided by the floored norm of its row is a real number when the row is real and the floor positive. -/
theorem normalized_real (z D : EReal) (d : ℝ) (hd : 0 < d) (hz : z = 0) (hD : D = (d : EReal))
    (row : Fin 256 → EReal) (hrow : ∀ c, ∃ r : ℝ, row c = (r : EReal)) (c : Fin 256) :
    ∃ r : ℝ, Ideal.div (row c) (max (Ideal.sqrt (z + ∑ c' : Fin 256, row c' * row c')) D) = (r : EReal) := by
  choose x hx using hrow
  have hrow' : row = fun c => (x c : EReal) := funext hx
  subst hz hD hrow'
  exact ⟨_, normalized_coe x hd c⟩

/-- At one pixel: on a real channel vector and real center rows, with the label naming class k0, the floor
    D = d > 0 and E = d², scaling afterwards is normalizing first. -/
theorem pixKer_eq_pixRef (z one two D E : EReal) (d : ℝ) (hd : 0 < d)
    (hz : z = 0) (h1 : one = ((1 : ℝ) : EReal)) (h2 : two = ((2 : ℝ) : EReal))
    (hD : D = (d : EReal)) (hE : E = ((d * d : ℝ) : EReal))
    (xv : Fin 256 → EReal) (hx : ∀ c, ∃ r : ℝ, xv c = (r : EReal))
    (cn : Fin 19 → Fin 256 → EReal) (hcn : ∀ k c, ∃ r : ℝ, cn k c = (r : EReal))
    (lab : BitVec 32) (k0 : Fin 19) (hlab : lab = BitVec.ofNat 32 k0.val) :
    pixKer z one two E xv lab cn = pixRef z two D xv (cn k0) := by
  choose x hx' using hx
  choose g hg using hcn
  have hxv : xv = fun c => (x c : EReal) := funext hx'
  have hcn' : cn = fun k c => (g k c : EReal) := funext fun k => funext fun c => hg k c
  subst hz h1 h2 hD hE hxv hcn' hlab
  unfold pixKer pixRef
  rw [maskSum_ofNat, maskSum_ofNat, invNorm_coe x hd]
  simp only [normalized_coe x hd]
  rw [sum_mul_coe, sum_mul_coe, sum_mul_coe, sum_mul_coe, sum_mul_coe, zero_add, zero_add, zero_add]
  simp only [← EReal.coe_mul, ← EReal.coe_add, ← EReal.coe_sub]
  exact congrArg _ (real_identity x (g k0) _)

/-! ## The totals -/

/-- A word of a class below 19 names that class. -/
theorem labIdx_ofNat (k : Fin 19) : labIdx (BitVec.ofNat 32 k.val) = k := by
  unfold labIdx
  apply Fin.ext
  have hk := k.isLt
  show (BitVec.ofNat 32 k.val).toNat % 19 = k.val
  rw [BitVec.toNat_ofNat]
  omega

/-- The sum over the 65536 pixels, image by image, each image in two runs of 8192. -/
theorem sum_pixels (f : Fin 65536 → EReal) :
    ∑ p : Fin 65536, f p
      = ∑ i : Fin 4, ((∑ l : Fin 8192, f (pixOf i 0 l)) + ∑ l : Fin 8192, f (pixOf i 1 l)) := by
  rw [Cert.SumSplit.sum_split 4 16384 65536 (by norm_num) f]
  refine Finset.sum_congr rfl (fun i _ => ?_)
  rw [Cert.SumSplit.sum_split 2 8192 16384 (by norm_num)
    (fun q : Fin 16384 => f ⟨16384 * i.val + q.val, Cert.SumSplit.lt_of_run (by norm_num) i q⟩)]
  rw [Fin.sum_univ_two]
  congr 1
  · refine Finset.sum_congr rfl (fun l _ => congrArg f (Fin.ext ?_))
    show 16384 * i.val + (8192 * (0 : Fin 2).val + l.val) = i.val * 16384 + (0 : Fin 2).val * 8192 + l.val
    simp only [Fin.val_zero]
    omega
  · refine Finset.sum_congr rfl (fun l _ => congrArg f (Fin.ext ?_))
    show 16384 * i.val + (8192 * (1 : Fin 2).val + l.val) = i.val * 16384 + (1 : Fin 2).val * 8192 + l.val
    simp only [Fin.val_one]
    omega

/-- The totals: image by image in two halves, or all pixels at once — the same mean. -/
theorem kerTotal_eq_refTotal (d : ℝ) (hd : 0 < d) (E : EReal) (hE : E = ((d * d : ℝ) : EReal))
    (hD : epsE = (d : EReal)) (hz : zE = 0) (h1 : oneE = ((1 : ℝ) : EReal)) (h2 : twoE = ((2 : ℝ) : EReal))
    (x : SX.Idx → EReal) (hx : ∀ i, ∃ r : ℝ, x i = (r : EReal))
    (cn : SC.Idx → EReal) (hcn : ∀ i, ∃ r : ℝ, cn i = (r : EReal))
    (lab labc : SL.Idx → BitVec 32) (hlab : ∀ i, ∃ k : Fin 19, lab i = BitVec.ofNat 32 k.val)
    (hclip : ∀ i, labc i = lab i) :
    kerTotal E x cn labc = refTotal x cn lab := by
  have hpix : ∀ p : Fin 65536,
      pixKer zE oneE twoE E (chanAt x p) (labAt labc p) (rows cn)
        = pixRef zE twoE epsE (chanAt x p) (rows cn (labIdx (labAt lab p))) := by
    intro p
    obtain ⟨k, hk⟩ := hlab (ix3 (pixN p) (pixH p) (pixW p))
    have hl : labAt lab p = BitVec.ofNat 32 k.val := hk
    have hlc : labAt labc p = BitVec.ofNat 32 k.val := (hclip _).trans hk
    rw [hl, labIdx_ofNat]
    exact pixKer_eq_pixRef zE oneE twoE epsE E d hd hz h1 h2 hD hE (chanAt x p) (fun c => hx _)
      (rows cn) (fun k c => hcn _) (labAt labc p) k hlc
  unfold kerTotal refTotal
  simp only [hpix]
  rw [sum_pixels, hz]
  simp only [zero_add]

end CenterLoss

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.PreFacts.lean ====
/-
  The precondition, read back: every feature and every center entry is a real number, every label names a class.

  The predicate is the conjunction of four tests, each an and over every entry of an array: |x0| < +∞, |x1| < +∞,
  0 ≤ label (signed), label < 19 (signed).  A conjunction of bits that is 1 has every conjunct 1; an and over all
  entries that is 1 has the test 1 at every entry.  An extended real with |x| < +∞ is a real; a 32-bit word w with
  0 ≤ w.toInt < 19 has w.toNat < 19 and is the word of that natural number.
-/
import proofs.«426619_j55198919688422_3_alg».proof.Proof.Spec
import proofs.«426619_j55198919688422_3_alg».proof.Pre_finite_inputs
import proofs.«426619_j55198919688422_3_alg».proof.Proof.LibReal
import Idealize.ShloMosaic.Lib.ReduceAll
import Idealize.ShloMosaic.Lib.Affine
import Idealize.ShloMosaic.Lib.Pipeline.Value

noncomputable section

namespace Cert.Pre_finite_inputs.PreFacts

open Idealize.ShloMosaic Idealize.ShloMosaic.ValueIdx CenterLoss

/-- A word that is at least 0 and below 19, both read signed, is the word of a natural number below 19. -/
theorem word_of_range (w : BitVec 32) (h0 : IntOp.cmpi .sge w 0#32 = 1#1) (h1 : IntOp.cmpi .slt w 19#32 = 1#1) :
    ∃ k : Fin 19, w = BitVec.ofNat 32 k.val := by
  rw [IntOp.cmpi_sge, show (0#32 : BitVec 32).toInt = 0 from by decide] at h0
  rw [IntOp.cmpi_slt, show (19#32 : BitVec 32).toInt = 19 from by decide] at h1
  have hlt := w.isLt
  have hn : w.toNat < 19 := by
    unfold BitVec.toInt at h0 h1
    split at h1 <;> omega
  refine ⟨⟨w.toNat, hn⟩, BitVec.eq_of_toNat_eq ?_⟩
  show w.toNat = (BitVec.ofNat 32 w.toNat).toNat
  rw [BitVec.toNat_ofNat]
  omega

variable [Cert.Pre_finite_inputs.Facts]

theorem pre_facts (x0 : SX.Idx → EReal) (x1 : SC.Idx → EReal) (x2 : SL.Idx → BitVec 32)
    (h : Cert.Pre_finite_inputs.fn (F := Ideal) x0 x1 x2 = fun _ => 1#1) :
    (∀ i, ∃ r : ℝ, x0 i = (r : EReal)) ∧ (∀ i, ∃ r : ℝ, x1 i = (r : EReal))
      ∧ (∀ i, ∃ k : Fin 19, x2 i = BitVec.ofNat 32 k.val) := by
  have e := congrFun h ix0
  dsimp only [Cert.Pre_finite_inputs.fn, Cert.Pre_finite_inputs.fn_part1] at e
  -- the four conjuncts: a conjunction of bits that is 1 has every conjunct 1
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun i => ?_⟩
  · exact Cert.LibReal.isReal_of_all x0 _ _ _ e1 i
  · exact Cert.LibReal.isReal_of_all x1 _ _ _ e2 i
  · -- at every label: 0 ≤ label and label < 19, signed
    have g0 := Host.reduce_andi_all _ _ _ _ ix0 e3 i
    have g1 := Host.reduce_andi_all _ _ _ _ ix0 e4 i
    have g0' : IntOp.cmpi .sge (x2 i) 0#32 = 1#1 := g0
    have g1' : IntOp.cmpi .slt (x2 i) 19#32 = 1#1 := g1
    exact word_of_range _ g0' g1'

end Cert.Pre_finite_inputs.PreFacts

end
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.RefValue.lean ====
/-
  The reference program's result, read: the mean over the pixels of the normalize-first distance.
-/
import proofs.«426619_j55198919688422_3_alg».proof.Proof.Spec
import proofs.«426619_j55198919688422_3_alg».proof.Proof.Gen.ReferenceIdeal.Read
import proofs.«426619_j55198919688422_3_alg».proof.Proof.LibGather

noncomputable section

namespace Cert.ReferenceIdeal.RefValue

open Idealize.ShloMosaic Idealize.ShloMosaic.ValueIdx Cert.ReferenceIdeal Cert.ReferenceIdeal.Read CenterLoss
open scoped BigOperators

variable [Cert.ReferenceIdeal.Facts]

/-! ## Where a pixel sits in the arrays

  The features are transposed to [4, 128, 128, 256] and then flattened row-major to [65536, 256]: row p of the flat
  array is the pixel (p / 16384, p / 128 % 128, p % 128), and its column c is the channel c. The labels are flattened
  the same way. -/

/-- Entry (p, c) of the flattened features is the feature array at (image, c, row, column) of pixel p. -/
theorem idx_feat (p : Fin 65536) (c : Fin 256) :
    idx_main_v10 (idx_main_v11 (ix2 p c)) = ix4 (pixN p) c (pixH p) (pixW p) := by
  funext a
  refine Fin.ext ?_
  have hp := p.isLt
  have hc := c.isLt
  match a with
  | ⟨0, _⟩ => show (p.val * 256 + c.val) / 4194304 = p.val / 16384; omega
  | ⟨1, _⟩ => show (p.val * 256 + c.val) % 256 = c.val; omega
  | ⟨2, _⟩ => show (p.val * 256 + c.val) / 32768 % 128 = p.val / 128 % 128; omega
  | ⟨3, _⟩ => show (p.val * 256 + c.val) / 256 % 128 = p.val % 128; omega

/-- Entry p of the flattened labels is the label array at (image, row, column) of pixel p. -/
theorem idx_lab (p : Fin 65536) :
    idx_main_v12 (ix1 p) = ix3 (pixN p) (pixH p) (pixW p) := by
  funext a
  refine Fin.ext ?_
  match a with
  | ⟨0, _⟩ => rfl
  | ⟨1, _⟩ => rfl
  | ⟨2, _⟩ => rfl

/-- The channel sum of a row of a [65536, 256] array runs over the entries (p, c). -/
theorem idx_row21 (p : Fin 65536) (c : Fin 256) : idx_main_v21 (ix1 p) c = ix2 p c := by
  funext a; match a with | ⟨0, _⟩ => rfl | ⟨1, _⟩ => rfl
theorem idx_row23 (p : Fin 65536) (c : Fin 256) : idx_main_v23 (ix1 p) c = ix2 p c := by
  funext a; match a with | ⟨0, _⟩ => rfl | ⟨1, _⟩ => rfl
theorem idx_row26 (p : Fin 65536) (c : Fin 256) : idx_main_v26 (ix1 p) c = ix2 p c := by
  funext a; match a with | ⟨0, _⟩ => rfl | ⟨1, _⟩ => rfl

/-- The squared norm of the pixel at (n, h, w) sums the channels (n, k, h, w). -/
theorem idx_norm (n : Fin 4) (c : Fin 256) (h w : Fin 128) (k : Fin 256) :
    idx_main_call0_v1 (idx_main_call0_v2 (idx_main_v3 (ix4 n c h w))) k = ix4 n k h w := by
  funext a; match a with | ⟨0, _⟩ => rfl | ⟨1, _⟩ => rfl | ⟨2, _⟩ => rfl | ⟨3, _⟩ => rfl

/-! ## The normalized features -/

/-- The divisor at (n, c, h, w): the larger of the floor and the root of the pixel's squared norm. -/
theorem norm_at (x0 : SX.Idx → EReal) (n : Fin 4) (c : Fin 256) (h w : Fin 128) :
    val_main_v3 (F := Ideal) x0 (ix4 n c h w)
      = max (Ideal.sqrt (zE + ∑ k : Fin 256, x0 (ix4 n k h w) * x0 (ix4 n k h w))) epsE := by
  rw [val_main_v3_apply, val_main_v2_apply, val_main_v0_apply, val_main_call0_v2_apply, val_main_call0_v1_apply,
    val_main_v1_apply, val_main_cst_apply, val_main_call0_cst_apply]
  simp only [Ideal.maximumf_def, Ideal.hostUnary_sqrt_def, Ideal.ofBits_def]
  refine congrArg (fun s => max (Ideal.sqrt (zE + s)) epsE) (Finset.sum_congr rfl fun k _ => ?_)
  rw [idx_norm, val_main_call0_v0_apply, Ideal.mulf_def]

/-- Entry (p, c) of the flattened normalized features: channel c of pixel p over the pixel's divisor. -/
theorem feat_at (x0 : SX.Idx → EReal) (p : Fin 65536) (c : Fin 256) :
    val_main_v11 (F := Ideal) x0 (ix2 p c)
      = Ideal.div (chanAt x0 p c)
          (max (Ideal.sqrt (zE + ∑ k : Fin 256, chanAt x0 p k * chanAt x0 p k)) epsE) := by
  rw [val_main_v11_apply, val_main_v10_apply, idx_feat, val_main_v4_apply, norm_at, Ideal.hostDivf_def]
  rfl

/-! ## The selected center row

  A label word that names a class k < 19 is not negative, so the index the program builds from it (the word plus 19
  when negative, else the word) is the word itself, and as a row number it is k. -/

/-- The index word built from a label naming a class is that label. -/
theorem index_word (k : Fin 19) :
    Scalar.select (IntOp.cmpi .slt (BitVec.ofNat 32 k.val) 0#32) (IntOp.addi (BitVec.ofNat 32 k.val) 19#32)
      (BitVec.ofNat 32 k.val) = BitVec.ofNat 32 k.val := by
  revert k; decide

/-- The class a label word naming k names is k. -/
theorem labIdx_ofNat (k : Fin 19) : labIdx (BitVec.ofNat 32 k.val) = k := by
  refine Fin.ext ?_
  show (BitVec.ofNat 32 k.val).toNat % 19 = k.val
  have := k.isLt
  rw [BitVec.toNat_ofNat]; omega

/-- The index column at pixel p is the pixel's label word. -/
theorem index_at (x2 : SL.Idx → BitVec 32) (hlab : ∀ i, ∃ k : Fin 19, x2 i = BitVec.ofNat 32 k.val) (p : Fin 65536) :
    val_main_v18 (F := Ideal) x2 (ix2 p 0) = labAt x2 p := by
  have e18 : idx_main_v18 (ix2 p (0 : Fin 1)) = ix1 p := by
    funext a; match a with | ⟨0, _⟩ => rfl
  rw [val_main_v18_apply, e18, val_main_v17_apply, val_main_v14_apply, val_main_v16_apply, val_main_v12_apply,
    val_main_v13_apply, val_main_v15_apply, val_main_c_apply, val_main_c_1_apply, idx_lab]
  show Scalar.select (IntOp.cmpi .slt (labAt x2 p) 0#32) (IntOp.addi (labAt x2 p) 19#32) (labAt x2 p) = labAt x2 p
  obtain ⟨k, hk⟩ := hlab (ix3 (pixN p) (pixH p) (pixW p))
  have hk' : labAt x2 p = BitVec.ofNat 32 k.val := hk
  rw [hk']
  exact index_word k

/-- Entry (p, c) of the gathered rows: column c of the center row the pixel's label names. -/
theorem gather_at (x1 : SC.Idx → EReal) (x2 : SL.Idx → BitVec 32)
    (hlab : ∀ i, ∃ k : Fin 19, x2 i = BitVec.ofNat 32 k.val) (p : Fin 65536) (c : Fin 256) :
    val_main_v19 (F := Ideal) x1 x2 (ix2 p c) = rows (val_main_v9 (F := Ideal) x1) (labIdx (labAt x2 p)) c := by
  obtain ⟨k, hk⟩ := hlab (ix3 (pixN p) (pixH p) (pixW p))
  have hk' : labAt x2 p = BitVec.ofNat 32 k.val := hk
  have hw : val_main_v18 (F := Ideal) x2 (ix2 p 0) = BitVec.ofNat 32 k.val := (index_at x2 hlab p).trans hk'
  have hn : (BitVec.ofNat 32 k.val).toNat = k.val := by
    have := k.isLt
    rw [BitVec.toNat_ofNat]; omega
  have hlt : (val_main_v18 (F := Ideal) x2 (ix2 p 0)).toNat < 19 := by rw [hw, hn]; exact k.isLt
  unfold val_main_v19
  rw [Cert.LibGather.gather_rows_apply gather_S19x256_S65536x1_S65536x256_1_0_n_n_0_1_1256 rfl rfl rfl rfl rfl rfl rfl
    (val_main_v9 (F := Ideal) x1) (val_main_v18 (F := Ideal) x2) p c (by decide) hlt]
  rw [hk', labIdx_ofNat]
  show val_main_v9 (F := Ideal) x1 (ix2 _ c) = val_main_v9 (F := Ideal) x1 (ix2 k c)
  refine congrArg (fun r => val_main_v9 (F := Ideal) x1 (ix2 r c)) (Fin.ext ?_)
  show (val_main_v18 (F := Ideal) x2 (ix2 p 0)).toNat = k.val
  rw [hw, hn]

/-! ## One pixel -/

/-- The first sum of a pixel: the squares of its normalized channels. -/
theorem sum_xx (x0 : SX.Idx → EReal) (p : Fin 65536) :
    ∑ k : Fin 256, val_main_v20 (F := Ideal) x0 (idx_main_v21 (ix1 p) k)
      = ∑ c : Fin 256,
          Ideal.div (chanAt x0 p c) (max (Ideal.sqrt (zE + ∑ c' : Fin 256, chanAt x0 p c' * chanAt x0 p c')) epsE)
          * Ideal.div (chanAt x0 p c) (max (Ideal.sqrt (zE + ∑ c' : Fin 256, chanAt x0 p c' * chanAt x0 p c')) epsE) := by
  refine Finset.sum_congr rfl fun c _ => ?_
  rw [idx_row21, val_main_v20_apply, feat_at, Ideal.mulf_def]

/-- The second sum of a pixel: the squares of the selected center row. -/
theorem sum_cc (x1 : SC.Idx → EReal) (x2 : SL.Idx → BitVec 32)
    (hlab : ∀ i, ∃ k : Fin 19, x2 i = BitVec.ofNat 32 k.val) (p : Fin 65536) :
    ∑ k : Fin 256, val_main_v22 (F := Ideal) x1 x2 (idx_main_v23 (ix1 p) k)
      = ∑ c : Fin 256, rows (val_main_v9 (F := Ideal) x1) (labIdx (labAt x2 p)) c
          * rows (val_main_v9 (F := Ideal) x1) (labIdx (labAt x2 p)) c := by
  refine Finset.sum_congr rfl fun c _ => ?_
  rw [idx_row23, val_main_v22_apply, gather_at x1 x2 hlab, Ideal.mulf_def]

/-- The third sum of a pixel: its normalized channels against the selected center row. -/
theorem sum_xc (x0 : SX.Idx → EReal) (x1 : SC.Idx → EReal) (x2 : SL.Idx → BitVec 32)
    (hlab : ∀ i, ∃ k : Fin 19, x2 i = BitVec.ofNat 32 k.val) (p : Fin 65536) :
    ∑ k : Fin 256, val_main_v25 (F := Ideal) x0 x1 x2 (idx_main_v26 (ix1 p) k)
      = ∑ c : Fin 256,
          Ideal.div (chanAt x0 p c) (max (Ideal.sqrt (zE + ∑ c' : Fin 256, chanAt x0 p c' * chanAt x0 p c')) epsE)
          * rows (val_main_v9 (F := Ideal) x1) (labIdx (labAt x2 p)) c := by
  refine Finset.sum_congr rfl fun c _ => ?_
  rw [idx_row26, val_main_v25_apply, feat_at, gather_at x1 x2 hlab, Ideal.mulf_def]

/-- The program's number at pixel p is the normalize-first distance of the pixel's channels to the center row its
    label names: (first sum + second sum) − 2 · third sum, each sum started from the zero constant. -/
theorem pixel_at (x0 : SX.Idx → EReal) (x1 : SC.Idx → EReal) (x2 : SL.Idx → BitVec 32)
    (hlab : ∀ i, ∃ k : Fin 19, x2 i = BitVec.ofNat 32 k.val) (p : Fin 65536) :
    val_main_v29 (F := Ideal) x0 x1 x2 (ix1 p)
      = pixRef zE twoE epsE (chanAt x0 p) (rows (val_main_v9 (F := Ideal) x1) (labIdx (labAt x2 p))) := by
  rw [val_main_v29_apply, val_main_v24_apply, val_main_v28_apply, val_main_v21_apply, val_main_v23_apply,
    val_main_v26_apply, val_main_v27_apply, val_main_cst_5_apply, val_main_cst_2_apply, val_main_cst_3_apply,
    val_main_cst_4_apply, sum_xx, sum_cc x1 x2 hlab, sum_xc x0 x1 x2 hlab]
  rfl

/-! ## The mean over the pixels -/

/-- A pixel number is an index of the flat [65536] array. -/
def pixEquiv : Fin 65536 ≃ S65536.Idx where
  toFun p := ix1 p
  invFun j := j 0
  left_inv _ := rfl
  right_inv j := (eq_ix1 j).symm

/-- With every label word naming a class, the reference's result is `refTotal` of the features, of its own
    normalized center table (`val_main_v9`) and of the labels. -/
theorem ref_value (x0 : SX.Idx → EReal) (x1 : SC.Idx → EReal) (x2 : SL.Idx → BitVec 32)
    (hlab : ∀ i, ∃ k : Fin 19, x2 i = BitVec.ofNat 32 k.val) :
    val_main_v31 (F := Ideal) x0 x1 x2 = fun _ => refTotal x0 (val_main_v9 (F := Ideal) x1) x2 := by
  funext i
  rw [val_main_v31_apply, val_main_v30_apply, val_main_cst_6_apply, val_main_cst_7_apply, Ideal.hostDivf_def]
  unfold refTotal
  refine congrArg (fun s => Ideal.div (zE + s) cntE) ?_
  rw [← Equiv.sum_comp pixEquiv (val_main_v29 (F := Ideal) x0 x1 x2)]
  exact Finset.sum_congr rfl fun p _ => pixel_at x0 x1 x2 hlab p

end Cert.ReferenceIdeal.RefValue

end
-- ==== Proof.CnReal.lean ====
/-
  The normalized center table is real when the centers are.
-/
import proofs.«426619_j55198919688422_3_alg».proof.Proof.Spec
import proofs.«426619_j55198919688422_3_alg».proof.Proof.Math
import proofs.«426619_j55198919688422_3_alg».proof.Proof.Gen.ReferenceIdeal.Read

noncomputable section

namespace Cert.ReferenceIdeal.CnReal

open Idealize.ShloMosaic Idealize.ShloMosaic.ValueIdx Cert.ReferenceIdeal Cert.ReferenceIdeal.Read CenterLoss
open scoped BigOperators

variable [Cert.ReferenceIdeal.Facts]

/-- The squared norm of row a of the centers sums the entries (a, k). -/
theorem idx_rownorm (a : Fin 19) (c k : Fin 256) :
    idx_main_call1_v1 (idx_main_call1_v2 (idx_main_v8 (ix2 a c))) k = ix2 a k := by
  funext b; match b with | ⟨0, _⟩ => rfl | ⟨1, _⟩ => rfl

/-- Entry (a, c) of the normalized center table: the center entry over the larger of the floor and the root of
    the squared norm of its row. -/
theorem cn_at (x1 : SC.Idx → EReal) (a : Fin 19) (c : Fin 256) :
    val_main_v9 (F := Ideal) x1 (ix2 a c)
      = Ideal.div (x1 (ix2 a c))
          (max (Ideal.sqrt (zE + ∑ k : Fin 256, x1 (ix2 a k) * x1 (ix2 a k))) epsE) := by
  rw [val_main_v9_apply, val_main_v8_apply, val_main_v7_apply, val_main_v5_apply, val_main_call1_v2_apply,
    val_main_call1_v1_apply, val_main_v6_apply, val_main_cst_0_apply, val_main_call1_cst_apply]
  simp only [Ideal.hostDivf_def, Ideal.maximumf_def, Ideal.hostUnary_sqrt_def, Ideal.ofBits_def]
  refine congrArg (fun s => Ideal.div (x1 (ix2 a c)) (max (Ideal.sqrt (zE + s)) epsE))
    (Finset.sum_congr rfl fun k _ => ?_)
  rw [idx_rownorm, val_main_call1_v0_apply, Ideal.mulf_def]

/-- Every entry of the normalized center table (each center divided by the floored norm of its row) is a real
    number when every center entry is, the floor `epsE` being a positive real `d`. -/
theorem cn_real (d : ℝ) (hd : 0 < d) (hD : epsE = (d : EReal)) (hz : zE = 0)
    (x1 : SC.Idx → EReal) (hx : ∀ i, ∃ r : ℝ, x1 i = (r : EReal)) (i : SC.Idx) :
    ∃ r : ℝ, val_main_v9 (F := Ideal) x1 i = (r : EReal) := by
  obtain ⟨a, c, rfl⟩ : ∃ (a : Fin 19) (c : Fin 256), i = ix2 a c := ⟨i 0, i 1, eq_ix2 i⟩
  rw [cn_at]
  exact normalized_real zE epsE d hd hz hD (fun c' => x1 (ix2 a c')) (fun c' => hx _) c

end Cert.ReferenceIdeal.CnReal

end
-- ==== Proof.Consts.lean ====
/-
  The float constants the two programs spell, as the extended reals their patterns denote, and the label clip.

  An f32 pattern with sign 0, exponent field e (neither 0 nor 255) and significand field f denotes
  (2^23 + f) · 2^(e − 127 − 23).  So 0x3F800000 (e = 127, f = 0) is 1, 0x40000000 (e = 128, f = 0) is 2, and
  0x2B8CBCCC (e = 87, f = 0x0CBCCC) is 9223372 · 2^(−63) = 2305843 / 2^61.  The kernel's named constant is the
  rational its table gives it, 5316911940649 / 2^122 = (2305843 / 2^61)².  A word that names a class k ≤ 18 is
  nonnegative and at most 18 read signed, so neither the max with 0 nor the min with 18 moves it.
-/
import proofs.«426619_j55198919688422_3_alg».proof.Proof.Spec
import proofs.«426619_j55198919688422_3_alg».proof.Proof.LibReal
import proofs.«426619_j55198919688422_3_alg».proof.KernelIdeal
import Idealize.ShloMosaic.PureOps.IdealRules
import Idealize.ShloMosaic.PureOps.Ideal.Laws

noncomputable section

namespace Cert.Consts

open Idealize.ShloMosaic CenterLoss

/-- The norm floor: the dyadic rational the f32 pattern of 1e-12 denotes. -/
def dEps : ℝ := 2305843 / 2 ^ 61

theorem dEps_pos : 0 < dEps := by
  unfold dEps; positivity

theorem zE_eq : zE = 0 := Ideal.ofBits_zero_f32

theorem oneE_eq : oneE = ((1 : ℝ) : EReal) := by
  show Ideal.ofBits .f32 0x3F800000#32 = ((1 : ℝ) : EReal)
  simp [Ideal.ofBits, Ideal.ieee, -EReal.coe_mul]; norm_num

theorem twoE_eq : twoE = ((2 : ℝ) : EReal) := by
  show Ideal.ofBits .f32 0x40000000#32 = ((2 : ℝ) : EReal)
  simp [Ideal.ofBits, Ideal.ieee, -EReal.coe_mul]; norm_num

theorem epsE_eq : epsE = (dEps : EReal) := by
  show Ideal.ofBits .f32 0x2B8CBCCC#32 = ((dEps : ℝ) : EReal)
  simp [Ideal.ofBits, Ideal.ieee, -EReal.coe_mul, dEps]; norm_num

/-- The kernel's named constant denotes the square of the norm floor. -/
theorem eps_sq_eq :
    Named.named (F := Ideal) Cert.KernelIdeal.κ "eps_sq" (φ := .f32) 0x179ABE15#32 = ((dEps * dEps : ℝ) : EReal) := by
  rw [IdealRules.named_const.ideal_named_scalar Cert.KernelIdeal.κ "eps_sq" _ _ rfl]
  congr 1
  norm_num [dEps]

/-- Clipping a label word that names a class into [0, 18] (signed) leaves it unchanged. -/
theorem clip_id (w : BitVec 32) (k : Fin 19) (h : w = BitVec.ofNat 32 k.val) :
    IntOp.minsi 18#32 (IntOp.maxsi 0#32 w) = w := by
  subst h
  revert k
  decide

end Cert.Consts

end
-- ==== Proof.KerHost.lean ====
/-
  What the kernel's region finds in its three input arrays: the host operations before the region, read.

  The features are the argument reshaped [4, 256, 128, 128] -> [4, 256, 16384] (row-major: pixel q of an image is
  row q / 128, column q % 128); the labels are the argument clipped into [0, 18] and reshaped [4, 128, 128] ->
  [4, 1, 16384]; the center table is the argument with every row divided by its floored norm.
-/
import proofs.«426619_j55198919688422_3_alg».proof.Proof.Gen.KernelIdeal.Frame
import proofs.«426619_j55198919688422_3_alg».proof.Proof.Spec
import Idealize.ShloMosaic.Lib.Pipeline.Value
import Idealize.ShloMosaic.Lib.Tactic
import Idealize.ShloMosaic.Lib.StableHlo.Run
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KerValue

open Cert.KernelIdeal Cert.KernelIdeal.Gen

open Idealize.ShloMosaic.ValueIdx CenterLoss

variable (m : (ℓ : Loc nD τ sig) → Buf (Elt Ideal) ℓ)

/-- The normalized center table as the host operations compute it from the centers. -/
def cnHost (x1 : FVec Ideal S19x256 .f32) : FVec Ideal S19x256 .f32 :=
  Host.divf (F := Ideal) x1 (broadcastInDim S19x256 ![0, 1] Facts₀.bcast_S19x1_S19x256_0_1
    (maximumf
      (Host.sqrt (F := Ideal) (broadcastInDim S19x1 ![0] Facts₀.bcast_S19_S19x1_0
        (Host.reduceAdd (F := Ideal) (mulf x1 x1) (constant (F := Ideal) S_ .f32 0x00000000#32) Facts₀.reducesTo_S19x256_S19_d1 Facts₀.h_S_)))
      (broadcastInDim S19x1 ![] Facts₀.bcast_S_S19x1 (constant (F := Ideal) S_ .f32 0x2B8CBCCC#32))))

/-- A label word clipped into [0, 18], signed. -/
def clipW (w : BitVec 32) : BitVec 32 := IntOp.minsi 18#32 (IntOp.maxsi 0#32 w)

/-- The center table the region finds. -/
theorem V_cn (c : Dev nD) :
    (V (F := Ideal) m c main_v4 : S19x256.Idx → EReal) = cnHost (m ((c : Thread nD τ).loc main_arg1)) := by
  unfold cnHost
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The features buffer is the features argument, the same elements in row-major order at [4, 256, 16384]. -/
theorem V_feat_eq (c : Dev nD) :
    (V (F := Ideal) m c main_v6 : S4x256x16384.Idx → EReal)
      = shapeCast S4x256x16384 (m ((c : Thread nD τ).loc main_arg0) : S4x256x128x128.Idx → EReal)
          Facts₀.shapeCasts_S4x256x128x128_S4x256x16384 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The features the region finds, at image `i`, channel `ch`, pixel `q`. -/
theorem V_feat (c : Dev nD) (i : Fin 4) (ch : Fin 256) (q : Fin 16384) :
    (V (F := Ideal) m c main_v6 : S4x256x16384.Idx → EReal) (ix3 i ch q)
      = (m ((c : Thread nD τ).loc main_arg0) : S4x256x128x128.Idx → EReal)
          (ix4 i ch (⟨q.val / 128, by have := q.isLt; omega⟩ : Fin 128) (⟨q.val % 128, Nat.mod_lt _ (by decide)⟩ : Fin 128)) := by
  rw [V_feat_eq]
  -- row-major positions: ((i·256 + ch)·128 + q/128)·128 + q%128 = (i·256 + ch)·16384 + q
  refine shapeCast_apply _ _ _ _ ?_
  show (S4x256x128x128.rowMajor (ix4 i ch ⟨q.val / 128, _⟩ ⟨q.val % 128, _⟩)).val = (S4x256x16384.rowMajor (ix3 i ch q)).val
  rw [Shape.rowMajor_val_four, Shape.rowMajor_val_three]
  show ((i.val * 256 + ch.val) * 128 + q.val / 128) * 128 + q.val % 128 = (i.val * 256 + ch.val) * 16384 + q.val
  have := Nat.div_add_mod q.val 128
  omega

/-- The labels buffer is the labels argument clipped pointwise — the larger of 0 and the word, then the smaller of 18 and
    that — with the same elements in row-major order at [4, 1, 16384]. -/
theorem V_lab_eq (c : Dev nD) :
    (V (F := Ideal) m c main_v7 : S4x1x16384.Idx → BitVec 32)
      = shapeCast S4x1x16384
          (fun j : S4x128x128.Idx => clipW ((m ((c : Thread nD τ).loc main_arg2) : S4x128x128.Idx → BitVec 32) j))
          Facts₀.shapeCasts_S4x128x128_S4x1x16384 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The labels the region finds, at image `i`, pixel `q`. -/
theorem V_lab (c : Dev nD) (i : Fin 4) (q : Fin 16384) :
    (V (F := Ideal) m c main_v7 : S4x1x16384.Idx → BitVec 32) (ix3 i (0 : Fin 1) q)
      = clipW ((m ((c : Thread nD τ).loc main_arg2) : S4x128x128.Idx → BitVec 32)
          (ix3 i (⟨q.val / 128, by have := q.isLt; omega⟩ : Fin 128) (⟨q.val % 128, Nat.mod_lt _ (by decide)⟩ : Fin 128))) := by
  rw [V_lab_eq]
  -- row-major positions: (i·128 + q/128)·128 + q%128 = (i·1 + 0)·16384 + q
  refine shapeCast_apply _ _ _ _ ?_
  rw [Shape.rowMajor_val_three, Shape.rowMajor_val_three]
  show (i.val * 128 + q.val / 128) * 128 + q.val % 128 = (i.val * 1 + (0 : Fin 1).val) * 16384 + q.val
  have := Nat.div_add_mod q.val 128
  simp only [Fin.val_zero]
  omega

end Cert.KernelIdeal.KerValue

end
-- ==== Proof.KerPieces.lean ====
/-
  What the kernel body leaves in the one-element output block, case by case.

  The body computes, from the feature block, the label block and the center table, a row `d` of 8192 per-pixel
  distances, and adds their sum to the output block: at the first half of an image it first stores zero and reads
  that zero back, at the second half it reads what the first half left.  So the block ends at
  (previous contents, or zero) + Σ d.
-/
import proofs.«426619_j55198919688422_3_alg».proof.Proof.Gen.KernelIdeal.Frame
import proofs.«426619_j55198919688422_3_alg».proof.Proof.Spec
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- Second half of an image: the block ends at the accumulation step applied to what it held, `xo3`. -/
theorem out_B (c : Dev nD) (i : grid0.Coords) (a2 : Memref sig .tc .vmem S1x256x8192 .f32) (h2 : a2.IsWhole)
    (a3 : Memref sig .tc .vmem S1x1x8192 .i32) (h3 : a3.IsWhole) (a4 : Memref sig .tc .vmem S19x256 .f32) (h4 : a4.IsWhole)
    (a5 : Memref sig .tc .vmem S1x1x1 .f32) (h5 : a5.IsWhole) (hc : ¬cond0_0 i)
    (x0 : Vec F S1x256x8192 .f32) (x1 : Vec F S1x1x8192 .i32) (x2 : Vec F S19x256 .f32) (xo3 : Vec F S1x1x1 .f32) :
    out0_B_3 c i a2 h2 a3 h3 a4 h4 a5 h5 hc x0 x1 x2 xo3 = k0_pay2 (k0_pay3 x0 x1 x2) xo3 := by
  unfold out0_B_3
  rw [View.read_writes_eq_canon _ _ _ (cover0_B_3 c i a2 h2 a3 h3 a4 h4 a5 h5 hc x0 x1 x2 xo3)]
  unfold kernelRun0_B
  dsimp only
  sl_unfold_words
  rw [View.canon_unit_zero hz3]
  simp only [View.readAt_eq_ld, h2.read_unread, h3.read_unread, h4.read_unread, h5.read_unread,
    View.ld_unit_zero (S := S1x256x8192) hz3, View.ld_unit_zero (S := S1x1x8192) hz3,
    View.ld_unit_zero (S := S19x256) hz2, View.ld_unit_zero (S := S1x1x1) hz3]

/-- First half of an image: the zero block is stored and read back, so the block ends at the accumulation step
    applied to the zero block. -/
theorem out_A (c : Dev nD) (i : grid0.Coords) (a2 : Memref sig .tc .vmem S1x256x8192 .f32) (h2 : a2.IsWhole)
    (a3 : Memref sig .tc .vmem S1x1x8192 .i32) (h3 : a3.IsWhole) (a4 : Memref sig .tc .vmem S19x256 .f32) (h4 : a4.IsWhole)
    (a5 : Memref sig .tc .vmem S1x1x1 .f32) (h5 : a5.IsWhole) (hc : cond0_0 i)
    (x0 : Vec F S1x256x8192 .f32) (x1 : Vec F S1x1x8192 .i32) (x2 : Vec F S19x256 .f32) :
    out0_A_3 c i a2 h2 a3 h3 a4 h4 a5 h5 hc x0 x1 x2 = k0_pay2 (k0_pay3 x0 x1 x2) (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1x256x8192) hz3, View.ld_unit_zero (S := S1x1x8192) hz3,
    View.ld_unit_zero (S := S19x256) hz2, View.ld_unit_zero (S := S1x1x1) hz3]

end Cert.KernelIdeal.KerValue

end
-- ==== Proof.KerPayload.lean ====
/-
  The kernel body's arithmetic, read at one lane, over the extended reals.

  Lane `l` of the 8192 lanes of a block is one pixel: its channel vector is column `l` of the [256, 8192] feature
  block, its label lane `l` of the label block.  The row of distances the body computes is, at lane `l`, the
  scale-afterwards distance `pixKer` of that channel vector, that label and the rows of the center block; the
  accumulation step adds the sum of the row over the lanes to what the output block held.
-/
import proofs.«426619_j55198919688422_3_alg».proof.Proof.Gen.KernelIdeal.Frame
import proofs.«426619_j55198919688422_3_alg».proof.Proof.Spec
import proofs.«426619_j55198919688422_3_alg».proof.Proof.KerPieces
import Idealize.ShloMosaic.Lib.StableHlo.Predicate
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KerValue

open Cert.KernelIdeal Cert.KernelIdeal.Gen

open Idealize.ShloMosaic.ValueIdx CenterLoss
open scoped BigOperators

/-- The named square of the norm floor, at the ideal instance. -/
abbrev E2 : EReal := Named.named (F := Ideal) κ "eps_sq" (φ := .f32) 0x179ABE15#32

/-- A select on a word equality test is the `if` on the equality. -/
theorem sel_eq (a b : BitVec 32) (x y : EReal) : Scalar.select (IntOp.cmpi .eq a b) x y = if a = b then x else y := by
  by_cases h : a = b
  · rw [if_pos h, StableHlo.Predicate.cmpi_eq_iff.mpr h, select_one]
  · rw [if_neg h, eq_zero_of_ne_one (fun h' => h (StableHlo.Predicate.cmpi_eq_iff.mp h')), select_zero]

/-- The sum over the 256 channels (axis 0 of a [256, 8192] array) at lane `l`. -/
theorem red_chan (v : FVec Ideal S256x8192 .f32) (l : Fin 8192) :
    multiReduction .add [0] S8192 v 0x00000000#32 Facts₀.reduces_S256x8192_S8192 (.inl rfl) rfl (ix1 l)
      = ∑ c : Fin 256, v (ix2 c l) := by
  refine (Ideal.multiReduction_add_single v 0x00000000#32 Facts₀.reduces_S256x8192_S8192 (.inl rfl) rfl (ix1 l)).trans ?_
  refine Finset.sum_congr rfl fun c _ => congrArg v (funext fun a => Fin.ext ?_)
  match a with
  | ⟨0, _⟩ => rfl
  | ⟨1, _⟩ => rfl

/-- The sum over the 19 classes (axis 0 of a [19, 8192] array) at lane `l`. -/
theorem red_cls (v : FVec Ideal S19x8192 .f32) (l : Fin 8192) :
    multiReduction .add [0] S8192 v 0x00000000#32 Facts₀.reduces_S19x8192_S8192 (.inl rfl) rfl (ix1 l)
      = ∑ k : Fin 19, v (ix2 k l) := by
  refine (Ideal.multiReduction_add_single v 0x00000000#32 Facts₀.reduces_S19x8192_S8192 (.inl rfl) rfl (ix1 l)).trans ?_
  refine Finset.sum_congr rfl fun c _ => congrArg v (funext fun a => Fin.ext ?_)
  match a with
  | ⟨0, _⟩ => rfl
  | ⟨1, _⟩ => rfl

/-- The sum along a row of the [19, 256] center block. -/
theorem red_row (v : FVec Ideal S19x256 .f32) (k : Fin 19) :
    multiReduction .add [1] S19 v 0x00000000#32 Facts₀.reduces_S19x256_S19 (.inl rfl) rfl (ix1 k)
      = ∑ c : Fin 256, v (ix2 k c) := by
  refine (Ideal.multiReduction_add_single v 0x00000000#32 Facts₀.reduces_S19x256_S19 (.inl rfl) rfl (ix1 k)).trans ?_
  refine Finset.sum_congr rfl fun c _ => congrArg v (funext fun a => Fin.ext ?_)
  match a with
  | ⟨0, _⟩ => rfl
  | ⟨1, _⟩ => rfl

/-- The sum over the 8192 lanes of a [1, 8192] row. -/
theorem red_lane (v : FVec Ideal S1x8192 .f32) :
    multiReduction .add [1] S1 v 0x00000000#32 Facts₀.reduces_S1x8192_S1 (.inl rfl) rfl (ix1 (0 : Fin 1))
      = ∑ l : Fin 8192, v (ix2 (0 : Fin 1) l) := by
  refine (Ideal.multiReduction_add_single v 0x00000000#32 Facts₀.reduces_S1x8192_S1 (.inl rfl) rfl (ix1 (0 : Fin 1))).trans ?_
  refine Finset.sum_congr rfl fun c _ => congrArg v (funext fun a => Fin.ext ?_)
  match a with
  | ⟨0, _⟩ => rfl
  | ⟨1, _⟩ => rfl

/-! ## Layout operations at an index -/

/-- A column of 19 entries viewed [19, 1]. -/
theorem cast_col (v : S19.Idx → EReal) (k : Fin 19) :
    shapeCast S19x1 v Facts₀.shapeCasts_S19_S19x1 (ix2 k (0 : Fin 1)) = v (ix1 k) :=
  shapeCast_apply v _ _ _ (by
    rw [Shape.rowMajor_val_one, Shape.rowMajor_val_two]
    show k.val = k.val * 1 + 0
    omega)

/-- A [19, 1] column spread over the 8192 lanes. -/
theorem bcast_col (v : S19x1.Idx → EReal) (k : Fin 19) (l : Fin 8192) :
    broadcastTo S19x8192 v Facts₀.broadcasts_S19x1_S19x8192 (ix2 k l) = v (ix2 k (0 : Fin 1)) := by
  refine broadcastTo_apply v _ (ix2 k l) (ix2 k (0 : Fin 1)) fun ax => ?_
  match ax with
  | ⟨0, _⟩ => rfl
  | ⟨1, _⟩ => rfl

/-! ## The class-by-channel product -/

theorem lhs_ax0 (j : S19x8192.Idx) (q : dot_S19x256_S256x8192_S19x8192_1_0_0_1_n_n.contr.Idx) :
    (dot_S19x256_S256x8192_S19x8192_1_0_0_1_n_n.lhsIdx j q 0).val = (j 0).val := rfl
theorem lhs_ax1 (j : S19x8192.Idx) (q : dot_S19x256_S256x8192_S19x8192_1_0_0_1_n_n.contr.Idx) :
    (dot_S19x256_S256x8192_S19x8192_1_0_0_1_n_n.lhsIdx j q 1).val = (q ⟨0, by decide⟩).val :=
  DotDims.lhsIdx_val_of_single dot_S19x256_S256x8192_S19x8192_1_0_0_1_n_n rfl j q
theorem rhs_ax0 (j : S19x8192.Idx) (q : dot_S19x256_S256x8192_S19x8192_1_0_0_1_n_n.contr.Idx) :
    (dot_S19x256_S256x8192_S19x8192_1_0_0_1_n_n.rhsIdx j q 0).val = (q ⟨0, by decide⟩).val :=
  DotDims.rhsIdx_val_of_single dot_S19x256_S256x8192_S19x8192_1_0_0_1_n_n rfl j q
theorem rhs_ax1 (j : S19x8192.Idx) (q : dot_S19x256_S256x8192_S19x8192_1_0_0_1_n_n.contr.Idx) :
    (dot_S19x256_S256x8192_S19x8192_1_0_0_1_n_n.rhsIdx j q 1).val = (j 1).val := rfl

/-- The matrix product into a zero accumulator, at class `k` and lane `l`: Σ over the channels of a(k, c)·b(c, l). -/
theorem mm_apply (a : FVec Ideal S19x256 .bf16) (b : FVec Ideal S256x8192 .bf16) (k : Fin 19) (l : Fin 8192) :
    matmul dot_S19x256_S256x8192_S19x8192_1_0_0_1_n_n none a b (constant S19x8192 .f32 0x00000000#32) (ix2 k l)
      = ∑ c : Fin 256, a (ix2 k c) * b (ix2 c l) := by
  refine (Ideal.matmul_constant_zero_apply _ none a b (ix2 k l)).trans ?_
  rw [← Equiv.sum_comp (contrEquiv1 dot_S19x256_S256x8192_S19x8192_1_0_0_1_n_n 256 rfl rfl).symm]
  refine Finset.sum_congr rfl fun c _ => ?_
  have hc := contrEquiv1_symm_val dot_S19x256_S256x8192_S19x8192_1_0_0_1_n_n 256 rfl rfl c
  congr 1
  · refine congrArg a (funext fun ax => Fin.ext ?_)
    match ax with
    | ⟨0, _⟩ => exact lhs_ax0 _ _
    | ⟨1, _⟩ => exact (lhs_ax1 _ _).trans hc
  · refine congrArg b (funext fun ax => Fin.ext ?_)
    match ax with
    | ⟨0, _⟩ => exact (rhs_ax0 _ _).trans hc
    | ⟨1, _⟩ => exact rhs_ax1 _ _

end Cert.KernelIdeal.KerValue

end
-- ==== Proof.Assemble.lean ====
/-
  The claims, assembled.

  The three programs run (frames); the one named constant is the value the table gives it (preserves); and at the
  ideal instance both results are the same mean distance (algebraic): the kernel's run ends at `kerTotal`, the
  reference's at `refTotal`, and under the precondition — real features and centers, labels naming classes —
  the two totals are equal.
-/
import proofs.«426619_j55198919688422_3_alg».proof.Defs
import proofs.«426619_j55198919688422_3_alg».proof.Proof.Gen.Kernel.Frame
import proofs.«426619_j55198919688422_3_alg».proof.Proof.Gen.KernelIdeal.Frame
import proofs.«426619_j55198919688422_3_alg».proof.Proof.Gen.ReferenceIdeal.Run
import proofs.«426619_j55198919688422_3_alg».proof.Proof.Gen.ReferenceIdeal.Read
import proofs.«426619_j55198919688422_3_alg».proof.Proof.Gen.Pre_finite_inputs
import proofs.«426619_j55198919688422_3_alg».proof.Proof.Spec
import proofs.«426619_j55198919688422_3_alg».proof.Proof.Math
import proofs.«426619_j55198919688422_3_alg».proof.Proof.PreFacts
import proofs.«426619_j55198919688422_3_alg».proof.Proof.RefValue
import proofs.«426619_j55198919688422_3_alg».proof.Proof.CnReal
import proofs.«426619_j55198919688422_3_alg».proof.Proof.Consts
import proofs.«426619_j55198919688422_3_alg».proof.Proof.KerHost
import proofs.«426619_j55198919688422_3_alg».proof.Proof.KerPayload

noncomputable section

namespace Cert.Proof.Assemble

open Idealize.ShloMosaic Idealize.ShloMosaic.TcCoe Idealize.SL.Sem CenterLoss

theorem frame_k : Cert.frame_Kernel (hKernel := Cert.Kernel.Gen.facts) (hPre_finite_inputs := Cert.Pre_finite_inputs.Gen.facts) := by
  exact fun m ρ _ => Cert.Kernel.Gen.frame m ρ

theorem frame_ki : Cert.frame_KernelIdeal (hKernelIdeal := Cert.KernelIdeal.Gen.facts) (hPre_finite_inputs := Cert.Pre_finite_inputs.Gen.facts) := by
  exact fun m ρ _ => Cert.KernelIdeal.Gen.frame m ρ

theorem frame_ri : Cert.frame_ReferenceIdeal (hReferenceIdeal := Cert.ReferenceIdeal.Gen.facts) (hPre_finite_inputs := Cert.Pre_finite_inputs.Gen.facts) := by
  exact fun m ρ _ =>
    (θ_run Cert.ReferenceIdeal.defs _ _).mono (fun _ h c => (h c).2) (Cert.ReferenceIdeal.Value.run (F := Ideal) m ρ)

theorem preserves : Cert.preserves_Kernel_KernelIdeal := by
  exact IdealRules.named_const.statement Cert.KernelIdeal.κ "eps_sq" .f32 0x179ABE15#32 _ rfl

/-- The kernel's normalized center table is the reference's: the same host operations of the same argument. -/
theorem cnHost_eq (x1 : SC.Idx → EReal) :
    Cert.KernelIdeal.KerValue.cnHost x1 = Cert.ReferenceIdeal.Read.val_main_v9 (F := Ideal) x1 := by
  unfold Cert.KernelIdeal.KerValue.cnHost Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_cst_0 Cert.ReferenceIdeal.Read.val_main_call1_v2
    Cert.ReferenceIdeal.Read.val_main_call1_v1 Cert.ReferenceIdeal.Read.val_main_call1_v0
    Cert.ReferenceIdeal.Read.val_main_call1_cst
  rfl

/-- What the kernel's run ends with: the result at `kerTotal` of the features,
    the normalized centers and the clipped labels, the arguments unchanged. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v10)
            = (fun _ => kerTotal Cert.KernelIdeal.KerValue.E2
                (m ((c.tc : Thread Cert.KernelIdeal.nD Cert.KernelIdeal.τ).loc Cert.KernelIdeal.main_arg0))
                (Cert.KernelIdeal.KerValue.cnHost (m ((c.tc : Thread Cert.KernelIdeal.nD Cert.KernelIdeal.τ).loc Cert.KernelIdeal.main_arg1)))
                (fun i => Cert.KernelIdeal.KerValue.clipW ((m ((c.tc : Thread Cert.KernelIdeal.nD Cert.KernelIdeal.τ).loc Cert.KernelIdeal.main_arg2) : SL.Idx → BitVec 32) i)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

theorem algebraic_of (hrun : KernelRuns) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => fun _ => kerTotal Cert.KernelIdeal.KerValue.E2
      (m ((c.tc : Thread Cert.KernelIdeal.nD Cert.KernelIdeal.τ).loc Cert.KernelIdeal.main_arg0))
      (Cert.KernelIdeal.KerValue.cnHost (m ((c.tc : Thread Cert.KernelIdeal.nD Cert.KernelIdeal.τ).loc Cert.KernelIdeal.main_arg1)))
      (fun i => Cert.KernelIdeal.KerValue.clipW ((m ((c.tc : Thread Cert.KernelIdeal.nD Cert.KernelIdeal.τ).loc Cert.KernelIdeal.main_arg2) : SL.Idx → BitVec 32) i)),
    hrun m ρ, ?_⟩
  refine (θ_run Cert.ReferenceIdeal.defs _ _).mono (fun _ h c => ⟨(h c).1.trans ?_, (h c).2⟩)
    (Cert.ReferenceIdeal.Value.run (F := Ideal) m' ρ')
  -- the precondition, read: real features, real centers, labels naming classes
  obtain ⟨hx, hcen, hlab⟩ := Cert.Pre_finite_inputs.PreFacts.pre_facts _ _ _ (hpre c)
  rw [Cert.ReferenceIdeal.Read.val_main_v31_eq, (hagree c).1, (hagree c).2.1, (hagree c).2.2,
    Cert.ReferenceIdeal.RefValue.ref_value _ _ _ hlab, ← cnHost_eq]
  funext _
  -- the normalized centers are real; the clip leaves a class's word alone
  have hcn : ∀ i, ∃ r : ℝ, Cert.KernelIdeal.KerValue.cnHost
      (m ((c.tc : Thread Cert.KernelIdeal.nD Cert.KernelIdeal.τ).loc Cert.KernelIdeal.main_arg1)) i = (r : EReal) := by
    intro i
    rw [cnHost_eq]
    exact Cert.ReferenceIdeal.CnReal.cn_real Cert.Consts.dEps Cert.Consts.dEps_pos Cert.Consts.epsE_eq Cert.Consts.zE_eq _ hcen i
  have hclip : ∀ i, Cert.KernelIdeal.KerValue.clipW
      ((m ((c.tc : Thread Cert.KernelIdeal.nD Cert.KernelIdeal.τ).loc Cert.KernelIdeal.main_arg2) : SL.Idx → BitVec 32) i)
      = (m ((c.tc : Thread Cert.KernelIdeal.nD Cert.KernelIdeal.τ).loc Cert.KernelIdeal.main_arg2) : SL.Idx → BitVec 32) i := by
    intro i
    obtain ⟨k, hk⟩ := hlab i
    exact Cert.Consts.clip_id _ k hk
  exact (kerTotal_eq_refTotal Cert.Consts.dEps Cert.Consts.dEps_pos _ Cert.Consts.eps_sq_eq Cert.Consts.epsE_eq
    Cert.Consts.zE_eq Cert.Consts.oneE_eq Cert.Consts.twoE_eq _ hx _ hcn _ _ hlab hclip).symm

end Cert.Proof.Assemble

end
-- ==== Proof.KerPay3.lean ====
/-
  The row of distances and the accumulation step, read at an index.
-/
import proofs.«426619_j55198919688422_3_alg».proof.Proof.Gen.KernelIdeal.Frame
import proofs.«426619_j55198919688422_3_alg».proof.Proof.Spec
import proofs.«426619_j55198919688422_3_alg».proof.Proof.KerPayload
import Idealize.ShloMosaic.Lib.StableHlo.Predicate
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KerValue

open Cert.KernelIdeal Cert.KernelIdeal.Gen

open Idealize.ShloMosaic.ValueIdx CenterLoss
open scoped BigOperators

theorem sqrt_apply {s : Shape} (v : FVec Ideal s .f32) (i : s.Idx) : sqrt v i = Ideal.sqrt (v i) := rfl
theorem cmpi_apply {s : Shape} (p : CmpIPredicate) (a b : IVec s 32) (i : s.Idx) : cmpi p a b i = IntOp.cmpi p (a i) (b i) := rfl
theorem scalar_ofBits (b : BitVec 32) : (Scalar.ofBits (F := Ideal) .f32 b : EReal) = Ideal.ofBits .f32 b := rfl

/-- The class number along axis 0 of the [19, 8192] iota. -/
theorem iota_cls (k : Fin 19) (l : Fin 8192) :
    iota .tc S19x8192 32 [0] Facts₀.iota_S19x8192_d0_w32 (ix2 k l) = BitVec.ofNat 32 k.val :=
  iota_single_apply .tc S19x8192 32 0 Facts₀.iota_S19x8192_d0_w32 (ix2 k l)

set_option maxHeartbeats 1000000 in
/-- The row of distances at lane `l` is the scale-afterwards distance of the lane's pixel. -/
theorem pay3_apply (x0 : Vec Ideal S1x256x8192 .f32) (x1 : Vec Ideal S1x1x8192 .i32) (x2 : Vec Ideal S19x256 .f32) (l : Fin 8192) :
    k0_pay3 (F := Ideal) x0 x1 x2 (ix2 (0 : Fin 1) l)
      = pixKer zE oneE twoE E2 (fun c => x0 (ix3 (0 : Fin 1) c l)) (x1 (ix3 (0 : Fin 1) (0 : Fin 1) l)) (fun k c => x2 (ix2 k c)) := by
  unfold k0_pay3 pixKer invNorm maskSum
  simp only [subf_apply, addf_apply, mulf_apply, divf_apply, maximumf_apply, broadcast_apply, select_apply, truncf_apply,
    sqrt_apply, cmpi_apply, scalar_ofBits, shapeCast_a_1a_apply, red_chan, red_cls, red_row, shapeCast_1ab_ab_apply,
    shapeCast_self, cast_col, bcast_col, broadcastTo_1b_ab_apply, mm_apply, sel_eq,
    iota_single_apply]
  rw [red_chan, red_cls, red_cls]
  simp only [mulf_apply, select_apply, cmpi_apply, broadcast_apply, truncf_apply, shapeCast_1ab_ab_apply, shapeCast_self,
    cast_col, bcast_col, broadcastTo_1b_ab_apply, mm_apply, sel_eq]
  refine congrArg₂ (· - ·) (congrArg₂ (· + ·) rfl (Finset.sum_congr rfl fun k _ => ?_))
    (congrArg₂ (· * ·) (congrArg₂ (· * ·) rfl (Finset.sum_congr rfl fun k _ => ?_)) rfl)
  · rw [iota_cls, red_row]
    rfl
  · rw [iota_cls]

/-- In a shape with one element every index sits at row-major position 0. -/
theorem rm_zero {s : Shape} (h : s.numel = 1) (k : s.Idx) : (s.rowMajor k).val = 0 := by
  have := (s.rowMajor k).isLt
  omega

/-- The accumulation step at the block's one index: what the block held plus the sum of the row over the lanes. -/
theorem pay2_apply (d : FVec Ideal S1x8192 .f32) (xo : Vec Ideal S1x1x1 .f32) (j : S1x1x1.Idx) :
    k0_pay2 (F := Ideal) d xo j = xo j + ∑ l : Fin 8192, d (ix2 (0 : Fin 1) l) := by
  unfold k0_pay2
  simp only [addf_apply, shapeCast_self]
  refine congrArg (xo j + ·) ?_
  rw [shapeCast_apply _ Facts₀.shapeCasts_S1x1_S1x1x1 j (ix2 (0 : Fin 1) (0 : Fin 1))
      ((rm_zero (by decide) _).trans (rm_zero (by decide) _).symm),
    shapeCast_apply _ Facts₀.shapeCasts_S1_S1x1 (ix2 (0 : Fin 1) (0 : Fin 1)) (ix1 (0 : Fin 1))
      ((rm_zero (by decide) _).trans (rm_zero (by decide) _).symm),
    red_lane]

end Cert.KernelIdeal.KerValue

end
-- ==== Proof.KerRun.lean ====
/-
  The kernel's run, read: the result is the mean of the scale-afterwards distance, summed image by image.

  The grid has 8 points; point t = 2·i + j handles half j of image i: lanes l of its blocks are the pixels
  j·8192 + l of the image.  The one-element output block of image i is zeroed at j = 0, accumulated over both
  halves and written back after j = 1, so the [4, 1, 1] array ends at (0 + P(i, 0)) + P(i, 1), P the sum of the
  row of distances over the lanes; the host then sums the four entries from zero and divides by the pixel count.
-/
import proofs.«426619_j55198919688422_3_alg».proof.Proof.Gen.KernelIdeal.Frame
import proofs.«426619_j55198919688422_3_alg».proof.Proof.Spec
import proofs.«426619_j55198919688422_3_alg».proof.Proof.KerPay3
import proofs.«426619_j55198919688422_3_alg».proof.Proof.KerHost
import Idealize.ShloMosaic.Lib.StableHlo.Run
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KerValue

open Cert.KernelIdeal Cert.KernelIdeal.Gen

open Idealize.ShloMosaic.ValueIdx CenterLoss
open scoped BigOperators

variable (m : (ℓ : Loc nD τ sig) → Buf (Elt Ideal) ℓ) (ρ : Dev nD → PrngReg)

/-- The three arrays the distances are computed from: the features, the clipped labels, the normalized centers. -/
abbrev featArr (c : Dev nD) : SX.Idx → EReal := m ((c : Thread nD τ).loc main_arg0)
abbrev labArr (c : Dev nD) : SL.Idx → BitVec 32 := fun i => clipW ((m ((c : Thread nD τ).loc main_arg2) : S4x128x128.Idx → BitVec 32) i)
abbrev cnArr (c : Dev nD) : SC.Idx → EReal := cnHost (m ((c : Thread nD τ).loc main_arg1))

/-- The blocks point `t` works on, at their literal types. -/
abbrev xblk (c : Dev nD) (t : Fin cfg0.N) : Vec Ideal S1x256x8192 .f32 := iblk m c 0 t
abbrev lblk (c : Dev nD) (t : Fin cfg0.N) : Vec Ideal S1x1x8192 .i32 := iblk m c 1 t
abbrev cblk (c : Dev nD) (t : Fin cfg0.N) : Vec Ideal S19x256 .f32 := iblk m c 2 t

/-- The index maps over the grid: point t reads image t / 2, half t % 2; the center table is one block; the output
    block is the image's. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = t.val % 2
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0 :=
  (by decide +kernel : ∀ t : Fin grid0.N, _)

/-- Lane `l`, channel `ch` of the feature block at point t = 2·i + j is the features at pixel (i, j, l). -/
theorem xblk_at (c : Dev nD) (t : Fin cfg0.N) (i : Fin 4) (j : Fin 2) (ht : t.val = 2 * i.val + j.val) (ch : Fin 256) (l : Fin 8192) :
    xblk m c t (ix3 (0 : Fin 1) ch l) = chanAt (featArr m c) (pixOf i j l) ch := by
  obtain ⟨e0, e1, e2, -⟩ := idx_facts t
  have hq : j.val * 8192 + l.val < 16384 := by have := j.isLt; have := l.isLt; omega
  have hb : xblk m c t (ix3 (0 : Fin 1) ch l) = (V (F := Ideal) m c main_v6 : S4x256x16384.Idx → EReal) (ix3 i ch ⟨j.val * 8192 + l.val, hq⟩) := by
    unfold xblk iblk
    rw [View.read_apply]
    show V m c main_v6 _ = V m c main_v6 _
    congr 1
    funext a
    apply Fin.ext
    match a with
    | ⟨0, _⟩ => show win0_0.index t (0 : Fin 3) * 1 + 1 * 0 = i.val; rw [e0]; have := j.isLt; omega
    | ⟨1, _⟩ => show win0_0.index t (1 : Fin 3) * 256 + 1 * ch.val = ch.val; rw [e1]; omega
    | ⟨2, _⟩ => show win0_0.index t (2 : Fin 3) * 8192 + 1 * l.val = j.val * 8192 + l.val; rw [e2]; have := j.isLt; omega
  rw [hb, V_feat]
  unfold chanAt featArr
  refine congrArg _ (funext fun a => Fin.ext ?_)
  have hi := i.isLt; have hj := j.isLt; have hl := l.isLt
  match a with
  | ⟨0, _⟩ => show i.val = (i.val * 16384 + j.val * 8192 + l.val) / 16384; omega
  | ⟨1, _⟩ => rfl
  | ⟨2, _⟩ => show (j.val * 8192 + l.val) / 128 = (i.val * 16384 + j.val * 8192 + l.val) / 128 % 128; omega
  | ⟨3, _⟩ => show (j.val * 8192 + l.val) % 128 = (i.val * 16384 + j.val * 8192 + l.val) % 128; omega

/-- Lane `l` of the label block at point t = 2·i + j is the clipped label of pixel (i, j, l). -/
theorem lblk_at (c : Dev nD) (t : Fin cfg0.N) (i : Fin 4) (j : Fin 2) (ht : t.val = 2 * i.val + j.val) (l : Fin 8192) :
    lblk m c t (ix3 (0 : Fin 1) (0 : Fin 1) l) = labAt (labArr m c) (pixOf i j l) := by
  obtain ⟨-, -, -, e0, e1, e2, -⟩ := idx_facts t
  have hq : j.val * 8192 + l.val < 16384 := by have := j.isLt; have := l.isLt; omega
  have hb : lblk m c t (ix3 (0 : Fin 1) (0 : Fin 1) l) = (V (F := Ideal) m c main_v7 : S4x1x16384.Idx → BitVec 32) (ix3 i (0 : Fin 1) ⟨j.val * 8192 + l.val, hq⟩) := by
    unfold lblk iblk
    rw [View.read_apply]
    show V m c main_v7 _ = V m c main_v7 _
    congr 1
    funext a
    apply Fin.ext
    match a with
    | ⟨0, _⟩ => show win0_1.index t (0 : Fin 3) * 1 + 1 * 0 = i.val; rw [e0]; have := j.isLt; omega
    | ⟨1, _⟩ => show win0_1.index t (1 : Fin 3) * 1 + 1 * 0 = 0; rw [e1]
    | ⟨2, _⟩ => show win0_1.index t (2 : Fin 3) * 8192 + 1 * l.val = j.val * 8192 + l.val; rw [e2]; have := j.isLt; omega
  rw [hb, V_lab]
  unfold labAt labArr
  refine congrArg clipW (congrArg _ (funext fun a => Fin.ext ?_))
  have hi := i.isLt; have hj := j.isLt; have hl := l.isLt
  match a with
  | ⟨0, _⟩ => show i.val = (i.val * 16384 + j.val * 8192 + l.val) / 16384; omega
  | ⟨1, _⟩ => show (j.val * 8192 + l.val) / 128 = (i.val * 16384 + j.val * 8192 + l.val) / 128 % 128; omega
  | ⟨2, _⟩ => show (j.val * 8192 + l.val) % 128 = (i.val * 16384 + j.val * 8192 + l.val) % 128; omega

/-- The center block at every point is the whole normalized center table. -/
theorem cblk_at (c : Dev nD) (t : Fin cfg0.N) (k : Fin 19) (ch : Fin 256) :
    cblk m c t (ix2 k ch) = rows (cnArr m c) k ch := by
  obtain ⟨-, -, -, -, -, -, e0, e1, -⟩ := idx_facts t
  have hb : cblk m c t (ix2 k ch) = (V (F := Ideal) m c main_v4 : S19x256.Idx → EReal) (ix2 k ch) := by
    unfold cblk iblk
    rw [View.read_apply]
    show V m c main_v4 _ = V m c main_v4 _
    congr 1
    funext a
    apply Fin.ext
    match a with
    | ⟨0, _⟩ => show win0_2.index t (0 : Fin 2) * 19 + 1 * k.val = k.val; rw [e0]; omega
    | ⟨1, _⟩ => show win0_2.index t (1 : Fin 2) * 256 + 1 * ch.val = ch.val; rw [e1]; omega
  rw [hb, V_cn]
  rfl

/-- The sum over the lanes of the row of distances at point t. -/
def laneSum (c : Dev nD) (t : Fin cfg0.N) : EReal :=
  ∑ l : Fin 8192, k0_pay3 (F := Ideal) (xblk m c t) (lblk m c t) (cblk m c t) (ix2 (0 : Fin 1) l)

/-- The sum of the scale-afterwards distance over the 8192 pixels of half `j` of image `i`. -/
def halfSum (c : Dev nD) (i : Fin 4) (j : Fin 2) : EReal :=
  ∑ l : Fin 8192, pixKer zE oneE twoE E2 (chanAt (featArr m c) (pixOf i j l)) (labAt (labArr m c) (pixOf i j l)) (rows (cnArr m c))

/-- `pixKer` of equal data. -/
theorem pixKer_congr {f1 f2 : Fin 256 → EReal} {w1 w2 : BitVec 32} {g1 g2 : Fin 19 → Fin 256 → EReal}
    (h1 : f1 = f2) (h2 : w1 = w2) (h3 : g1 = g2) :
    pixKer zE oneE twoE E2 f1 w1 g1 = pixKer zE oneE twoE E2 f2 w2 g2 := by
  subst h1 h2 h3
  rfl

theorem laneSum_eq (c : Dev nD) (t : Fin cfg0.N) (i : Fin 4) (j : Fin 2) (ht : t.val = 2 * i.val + j.val) :
    laneSum m c t = halfSum m c i j := by
  unfold laneSum halfSum
  refine Finset.sum_congr rfl fun l _ => ?_
  exact (pay3_apply (xblk m c t) (lblk m c t) (cblk m c t) l).trans
    (pixKer_congr (funext fun ch => xblk_at m c t i j ht ch l) (lblk_at m c t i j ht l)
      (funext fun k => funext fun ch => cblk_at m c t k ch))

/-! ## What the output block holds, point by point -/

/-- At the first half of an image the block ends at zero plus the lane sum. -/
theorem outs_even (c : Dev nD) (t : Fin cfg0.N) (h0 : t.val % 2 = 0) (y : S1x1x1.Idx) :
    outsAt0 m c t.val t.isLt y = zE + laneSum m c t := by
  rw [outsAt0_A m c t h0]
  exact (congrFun (out_A c (grid0.coords t) (ms0_0 t) (hs0_0 t) (ms0_1 t) (hs0_1 t) (ms0_2 t) (hs0_2 t) (ms0_3 t) (hs0_3 t)
    ((hcond0_0 t).mpr h0) (xblk m c t) (lblk m c t) (cblk m c t)) y).trans
    (pay2_apply (k0_pay3 (F := Ideal) (xblk m c t) (lblk m c t) (cblk m c t)) (k0_pay1 (F := Ideal)) y)

/-- At the second half it ends at what the first half left plus the lane sum. -/
theorem outs_odd (c : Dev nD) (t : Fin cfg0.N) (h1 : ¬t.val % 2 = 0) (y : S1x1x1.Idx) :
    outsAt0 m c t.val t.isLt y
      = outsAt0 m c (t.val - 1) (Nat.lt_of_le_of_lt (Nat.sub_le _ _) t.isLt) y + laneSum m c t := by
  rw [outsAt0_B m c t h1]
  exact (congrFun (out_B c (grid0.coords t) (ms0_0 t) (hs0_0 t) (ms0_1 t) (hs0_1 t) (ms0_2 t) (hs0_2 t) (ms0_3 t) (hs0_3 t)
    (fun h => h1 ((hcond0_0 t).mp h)) (xblk m c t) (lblk m c t) (cblk m c t)
    (outsAt0 m c (t.val - 1) (Nat.lt_of_le_of_lt (Nat.sub_le _ _) t.isLt))) y).trans
    (pay2_apply (k0_pay3 (F := Ideal) (xblk m c t) (lblk m c t) (cblk m c t))
      (outsAt0 m c (t.val - 1) (Nat.lt_of_le_of_lt (Nat.sub_le _ _) t.isLt)) y)

/-- After the second half of image `i` the block holds (0 + first half) + second half. -/
theorem outs_image (c : Dev nD) (i : Fin 4) (t : Fin cfg0.N) (ht : t.val = 2 * i.val + 1) (y : S1x1x1.Idx) :
    outsAt0 m c t.val t.isLt y = (zE + halfSum m c i 0) + halfSum m c i 1 := by
  have hN : cfg0.N = 8 := N_0
  have h1 : ¬t.val % 2 = 0 := by omega
  have hlt : t.val - 1 < cfg0.N := Nat.lt_of_le_of_lt (Nat.sub_le _ _) t.isLt
  rw [outs_odd m c t h1 y, laneSum_eq m c t i 1 (by show t.val = 2 * i.val + 1; exact ht)]
  have he := outs_even m c ⟨t.val - 1, hlt⟩ (by show (t.val - 1) % 2 = 0; omega) y
  rw [laneSum_eq m c ⟨t.val - 1, hlt⟩ i 0 (by show t.val - 1 = 2 * i.val + 0; omega)] at he
  exact congrArg (· + halfSum m c i 1) he

/-! ## The [4, 1, 1] array after the run -/

/-- Entry `i` of the result array: (0 + first half of image i) + second half. -/
def imageSums (c : Dev nD) : S4x1x1.Idx → EReal :=
  fun a => (zE + halfSum m c ⟨(a 0).val, (a 0).isLt⟩ 0) + halfSum m c ⟨(a 0).val, (a 0).isLt⟩ 1

/-- What a write-back (after the second half of an image) writes is that image's block of `imageSums`. -/
theorem flushed_eq (c : Dev nD) (t : Fin cfg0.N) (hf : (cfg0.win 3).flush t = true) :
    (dats m 0 c).flushed 3 t = ((cfg0.win 3).blk t).view.read (Elt Ideal) (imageSums m c) := by
  have hodd : t.val % 2 = 1 := (flush0_3 t).mp hf
  have hN : cfg0.N = 8 := N_0
  have hlt := t.isLt
  obtain ⟨-, -, -, -, -, -, -, -, e0, e1, e2⟩ := idx_facts t
  have hi : t.val / 2 < 4 := by omega
  show (cfg0.win 3).cut (grid0.coords t) ((dats m 0 c).after 3 t) = _
  rw [after0_3]
  funext y
  rw [View.read_apply]
  show outsAt0 m c t.val t.isLt y = imageSums m c (((cfg0.win 3).blk t).view.emb y)
  rw [outs_image m c ⟨t.val / 2, hi⟩ t (by show t.val = 2 * (t.val / 2) + 1; omega) y]
  unfold imageSums
  have hy : (y 0).val < 1 := (y 0).isLt
  have he : (⟨((((cfg0.win 3).blk t).view.emb y) 0).val, ((((cfg0.win 3).blk t).view.emb y) 0).isLt⟩ : Fin 4) = ⟨t.val / 2, hi⟩ :=
    Fin.ext (by show win0_3.index t (0 : Fin 3) * 1 + 1 * (y 0).val = t.val / 2; rw [e0]; omega)
  rw [he]

/-- An index of the array is in point t's block iff each coordinate is in the block's range. -/
theorem mem_blk3 (t : Fin cfg0.N) (a : S4x1x1.Idx) :
    a ∈ ((cfg0.win 3).blk t).view.set ↔ ∀ ax : Fin 3, win0_3.index t ax * S1x1x1.size ax ≤ (a ax).val
      ∧ (a ax).val < win0_3.index t ax * S1x1x1.size ax + S1x1x1.size ax := by
  show a ∈ ((View.whole main_v8).slice (win0_3.rect t)).set ↔ _
  rw [View.set_slice_whole, Rect.mem_set_unit]
  exact Iff.rfl

/-- Every entry is written back, by the second half of its image: the array ends at `imageSums`. -/
theorem final_out (c : Dev nD) : (dats m 0 c).arrAt 3 cfg0.N = imageSums m c :=
  (dats m 0 c).arrAt_eq_of_cover 3 (imageSums m c) (flushed_eq m c) fun a => by
    have ha0 : (a 0).val < 4 := (a 0).isLt
    have ha1 : (a 1).val < 1 := (a 1).isLt
    have ha2 : (a 2).val < 1 := (a 2).isLt
    have hN : cfg0.N = 8 := N_0
    have hlt : 2 * (a 0).val + 1 < cfg0.N := by omega
    obtain ⟨-, -, -, -, -, -, -, -, e0, e1, e2⟩ := idx_facts ⟨2 * (a 0).val + 1, hlt⟩
    refine ⟨⟨2 * (a 0).val + 1, hlt⟩, (flush0_3 _).mpr (by show (2 * (a 0).val + 1) % 2 = 1; omega), ?_⟩
    rw [mem_blk3]
    intro ax
    match ax with
    | ⟨0, _⟩ =>
      show win0_3.index ⟨2 * (a 0).val + 1, hlt⟩ (0 : Fin 3) * 1 ≤ (a 0).val ∧ (a 0).val < win0_3.index ⟨2 * (a 0).val + 1, hlt⟩ (0 : Fin 3) * 1 + 1
      rw [e0]; show (2 * (a 0).val + 1) / 2 * 1 ≤ (a 0).val ∧ (a 0).val < (2 * (a 0).val + 1) / 2 * 1 + 1; omega
    | ⟨1, _⟩ =>
      show win0_3.index ⟨2 * (a 0).val + 1, hlt⟩ (1 : Fin 3) * 1 ≤ (a 1).val ∧ (a 1).val < win0_3.index ⟨2 * (a 0).val + 1, hlt⟩ (1 : Fin 3) * 1 + 1
      rw [e1]; omega
    | ⟨2, _⟩ =>
      show win0_3.index ⟨2 * (a 0).val + 1, hlt⟩ (2 : Fin 3) * 1 ≤ (a 2).val ∧ (a 2).val < win0_3.index ⟨2 * (a 0).val + 1, hlt⟩ (2 : Fin 3) * 1 + 1
      rw [e2]; omega

/-! ## The host operations after the region -/

/-- The indices of the [4, 1, 1] array are its four images. -/
def imgEquiv : S4x1x1.Idx ≃ Fin 4 where
  toFun a := ⟨(a 0).val, (a 0).isLt⟩
  invFun i := ix3 i (0 : Fin 1) (0 : Fin 1)
  left_inv a := by
    funext ax
    apply Fin.ext
    match ax with
    | ⟨0, _⟩ => rfl
    | ⟨1, _⟩ => show 0 = (a 1).val; have : (a 1).val < 1 := (a 1).isLt; omega
    | ⟨2, _⟩ => show 0 = (a 2).val; have : (a 2).val < 1 := (a 2).isLt; omega
  right_inv i := rfl

theorem tail_eq (c : Dev nD) :
    Pipeline.afterTail₀ cfgs (dats m) 0 (V0 m) [hostOps1] c main_v10
      = fun _ => kerTotal E2 (featArr m c) (cnArr m c) (labArr m c) := by
  unfold Pipeline.afterTail₀
  show StableHlo.after hostOps1 _ (Proc.devRef .tc main_v10) = _
  after_results
  have hw := (Pipeline.withArrays_arr spec0 launch0.win.arr_inj c (V0 m c) (fun w => (dats m 0 c).arrAt w cfg0.N) 3).trans (final_out m c)
  refine (congrArg (fun A => Host.divf (F := Ideal) (Host.reduceAdd (F := Ideal) A (constant (F := Ideal) S_ .f32 0x00000000#32)
    Facts₀.reducesTo_S4x1x1_S_d0_1_2 Facts₀.h_S_) (constant (F := Ideal) S_ .f32 0x47800000#32)) hw).trans ?_
  funext x
  show Ideal.div (Host.reduceAdd (F := Ideal) (imageSums m c) (constant (F := Ideal) S_ .f32 0x00000000#32)
    Facts₀.reducesTo_S4x1x1_S_d0_1_2 Facts₀.h_S_ x) (Ideal.ofBits .f32 0x47800000#32) = _
  simp only [Host.reduceAdd, Ideal.hostReduceAdd_def]
  rw [Ideal.hostReduceAdd_total Facts₀.reducesTo_S4x1x1_S_d0_1_2 (fun b => b.elim0)]
  unfold kerTotal
  refine congrArg (fun s => Ideal.div (zE + s) cntE) ?_
  exact Fintype.sum_equiv imgEquiv _ _ (fun a => rfl)

/-! ## The run -/

/-- Every weakly fair execution of the kernel program terminates with the result at `kerTotal` of the features,
    the normalized centers and the clipped labels, and with the three arguments unchanged. -/
theorem kernel_run : θ_run defs (onTc (τ := τ) (main (F := Ideal))) ⟨m, fun _ => 0, ρ⟩ fun r => ∀ c : Dev nD,
      r.2.mem ((c : Thread nD τ).loc main_v10) = (fun _ => kerTotal E2 (featArr m c) (cnArr m c) (labArr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.lean ====
/-
  The certificate of the center loss kernel against its reference, over the extended reals.

  Both programs compute the mean over the 4·128·128 pixels of the squared distance between the L2-normalized
  channel vector of the pixel and the L2-normalized center row its label selects, expanded as
  |xn|² + |cn|² − 2⟨xn, cn⟩.  The reference normalizes every channel first, by max(√(Σx²), D) with D the f32
  value of 1e-12, and gathers the center row by the label.  The kernel takes the three sums on the raw channels
  and scales afterwards by 1/√(max(Σx², E)), E its own constant named D², selects the center row by a one-hot
  mask over the 19 classes of the label clipped into [0, 18], and accumulates image by image in two halves.
  On real features and centers, with every label naming a class, √(max(s, D²)) = max(√s, D) > 0, the mask picks
  exactly the labelled row, the clip does nothing, and the two arrangements are the same real number
  (Proof/Math.lean); the sum over the pixels is re-indexed, not re-associated by value.

  The frames of the two kernel programs are the generated ones; the reference's frame is its generated run with
  the result dropped; the one rewrite of the idealization is the named constant's table entry.
-/
import proofs.«426619_j55198919688422_3_alg».proof.Defs
import proofs.«426619_j55198919688422_3_alg».proof.Proof.Assemble
import proofs.«426619_j55198919688422_3_alg».proof.Proof.KerRun

noncomputable section

namespace Cert.Proof

open Idealize.ShloMosaic Idealize.SL.Sem

/-- The kernel's run ends at the image-by-image mean of the scale-afterwards distance. -/
theorem kernel_runs : Assemble.KernelRuns := fun m ρ => Cert.KernelIdeal.KerValue.kernel_run m ρ

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves, Assemble.algebraic_of kernel_runs⟩

end Cert.Proof

end
